-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x27x128 : Shape := ⟨3, ![32768, 27, 128]⟩
abbrev S1024x480 : Shape := ⟨2, ![1024, 480]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S32768x27x128 : S_.BroadcastsInDim S32768x27x128 (![] : Fin 0 → Fin S32768x27x128.rank)
  reducesTo_S32768x27x128_S_d0_1_2 : S32768x27x128.ReducesTo [0, 1, 2] S_
  h_S_ : 0 < S_.numel
  bcast_S_S1024x480 : S_.BroadcastsInDim S1024x480 (![] : Fin 0 → Fin S1024x480.rank)
  reducesTo_S1024x480_S_d0_1 : S1024x480.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S256x512 .f32) (main_arg8 : FVec F S256 .f32) (main_arg9 : FVec F S1x256 .f32) (main_arg10 : FVec F S1 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024 .f32) (main_arg5 : FVec F S512x1024 .f32) (main_arg6 : FVec F S512 .f32) (main_arg7 : FVec F S256x512 .f32) (main_arg8 : FVec F S256 .f32) (main_arg9 : FVec F S1x256 .f32) (main_arg10 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x27x128 .f32) (main_arg1 : FVec F S1024x480 .f32) (main_arg2 : FVec F S1024 .f32) (main_arg3 : FVec F S1024x1024 .f32) (main_arg4 : FVec F S1024 .f32) (main_arg5 : FVec F S512x1024 .f32) (main_arg6 : FVec F S512 .f32) (main_arg7 : FVec F S256x512 .f32) (main_arg8 : FVec F S256 .f32) (main_arg9 : FVec F S1x256 .f32) (main_arg10 : FVec F S1 .f32) : IVec S_ 1 :=
  let main_v0 : FVec F S32768x27x128 .f32 := Host.absf main_arg0
  let main_cst : FVec F S_ .f32 := constant S_ .f32 0x7F800000#32
  let main_v1 : FVec F S32768x27x128 .f32 := broadcastInDim S32768x27x128 ![] bcast_S_S32768x27x128 main_cst
  let main_v2 : IVec S32768x27x128 1 := cmpf .olt main_v0 main_v1
  let main_c : IVec S_ 1 := constantI S_ 1 1#1
  let main_v3 : IVec S_ 1 := (fun x v => Host.reduce IntOp.andi x v reducesTo_S32768x27x128_S_d0_1_2 h_S_) main_v2 main_c
  let main_v4 : FVec F S1024x480 .f32 := Host.absf main_arg1
  let main_cst_0 : FVec F S_ .f32 := constant S_ .f32 0x7F800000#32
  let main_v5 : FVec F S1024x480 .f32 := broadcastInDim S1024x480 ![] bcast_S_S1024x480 main_cst_0
  let main_v6 : IVec S1024x480 1 := cmpf .olt main_v4 main_v5
  let main_c_1 : IVec S_ 1 := constantI S_ 1 1#1
  let main_v7 : IVec S_ 1 := (fun x v => Host.reduce IntOp.andi x v reducesTo_S1024x480_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S32768x27x128 : Shape := ⟨3, ![32768, 27, 128]⟩
abbrev S1024x480 : Shape := ⟨2, ![1024, 480]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S351 : Shape := ⟨1, ![351]⟩
abbrev S32768x27x27 : Shape := ⟨3, ![32768, 27, 27]⟩
abbrev S1024x27x128 : Shape := ⟨3, ![1024, 27, 128]⟩
abbrev S1024x27x27 : Shape := ⟨3, ![1024, 27, 27]⟩
abbrev S_ : Shape := ⟨0, ![]⟩
abbrev S351x1 : Shape := ⟨2, ![351, 1]⟩
abbrev S351x2 : Shape := ⟨2, ![351, 2]⟩
abbrev S32768x351 : Shape := ⟨2, ![32768, 351]⟩
abbrev S32768x1x128 : Shape := ⟨3, ![32768, 1, 128]⟩
abbrev S32768x128 : Shape := ⟨2, ![32768, 128]⟩
abbrev S32768x1 : Shape := ⟨2, ![32768, 1]⟩
abbrev S32768x480 : Shape := ⟨2, ![32768, 480]⟩
abbrev S480x1024 : Shape := ⟨2, ![480, 1024]⟩
abbrev S1024x512 : Shape := ⟨2, ![1024, 512]⟩
abbrev S512x256 : Shape := ⟨2, ![512, 256]⟩
abbrev S256x1 : Shape := ⟨2, ![256, 1]⟩
abbrev S1x1024 : Shape := ⟨2, ![1, 1024]⟩
abbrev S1x512 : Shape := ⟨2, ![1, 512]⟩
abbrev S1x1 : Shape := ⟨2, ![1, 1]⟩
abbrev S1024x1 : Shape := ⟨2, ![1024, 1]⟩
abbrev S1024x256 : Shape := ⟨2, ![1024, 256]⟩

abbrev nBuf : Space → Nat
  | .hbm => 50
  | .vmem => 18
  | .smem => 0
  | _ => 0

abbrev bufTy : (tb : Table) → Fin (tcTables nBuf tb) → BufTy
  | .hbm, ⟨0, _⟩ => ⟨S32768x27x128, .f32⟩
  | .hbm, ⟨1, _⟩ => ⟨S1024x480, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S351, .i32⟩
  | .hbm, ⟨12, _⟩ => ⟨S351, .i1⟩
  | .hbm, ⟨13, _⟩ => ⟨S351, .i32⟩
  | .hbm, ⟨14, _⟩ => ⟨S351, .i1⟩
  | .hbm, ⟨15, _⟩ => ⟨S32768x27x128, .bf16⟩
  | .hbm, ⟨16, _⟩ => ⟨S32768x27x27, .f32⟩
  | .hbm, ⟨17, _⟩ => ⟨S_, .i32⟩
  | .hbm, ⟨18, _⟩ => ⟨S351, .i32⟩
  | .hbm, ⟨19, _⟩ => ⟨S351, .i32⟩
  | .hbm, ⟨20, _⟩ => ⟨S351, .i32⟩
  | .hbm, ⟨21, _⟩ => ⟨S_, .i32⟩
  | .hbm, ⟨22, _⟩ => ⟨S351, .i32⟩
  | .hbm, ⟨23, _⟩ => ⟨S351, .i32⟩
  | .hbm, ⟨24, _⟩ => ⟨S351, .i32⟩
  | .hbm, ⟨25, _⟩ => ⟨S351x1, .i32⟩
  | .hbm, ⟨26, _⟩ => ⟨S351x1, .i32⟩
  | .hbm, ⟨27, _⟩ => ⟨S351x2, .i32⟩
  | .hbm, ⟨28, _⟩ => ⟨S32768x351, .f32⟩
  | .hbm, ⟨29, _⟩ => ⟨S32768x1x128, .f32⟩
  | .hbm, ⟨30, _⟩ => ⟨S32768x128, .f32⟩
  | .hbm, ⟨31, _⟩ => ⟨S_, .f32⟩
  | .hbm, ⟨32, _⟩ => ⟨S32768x1, .f32⟩
  | .hbm, ⟨33, _⟩ => ⟨S32768x480, .f32⟩
  | .hbm, ⟨34, _⟩ => ⟨S480x1024, .f32⟩
  | .hbm, ⟨35, _⟩ => ⟨S480x1024, .bf16⟩
  | .hbm, ⟨36, _⟩ => ⟨S1024x1024, .f32⟩
  | .hbm, ⟨37, _⟩ => ⟨S1024x1024, .bf16⟩
  | .hbm, ⟨38, _⟩ => ⟨S1024x512, .f32⟩
  | .hbm, ⟨39, _⟩ => ⟨S1024x512, .bf16⟩
  | .hbm, ⟨40, _⟩ => ⟨S512x256, .f32⟩
  | .hbm, ⟨41, _⟩ => ⟨S512x256, .bf16⟩
  | .hbm, ⟨42, _⟩ => ⟨S256x1, .f32⟩
  | .hbm, ⟨43, _⟩ => ⟨S256x1, .bf16⟩
  | .hbm, ⟨44, _⟩ => ⟨S1x1024, .f32⟩
  | .hbm, ⟨45, _⟩ => ⟨S1x1024, .f32⟩
  | .hbm, ⟨46, _⟩ => ⟨S1x512, .f32⟩
  | .hbm, ⟨47, _⟩ => ⟨S1x256, .f32⟩
  | .hbm, ⟨48, _⟩ => ⟨S1x1, .f32⟩
  | .hbm, ⟨49, _⟩ => ⟨S32768x1, .f32⟩
  | .local _ .vmem, ⟨0, _⟩ => ⟨S1024x27x128, .bf16⟩
  | .local _ .vmem, ⟨1, _⟩ => ⟨S1024x27x128, .bf16⟩
  | .local _ .vmem, ⟨2, _⟩ => ⟨S1024x27x27, .f32⟩
  | .local _ .vmem, ⟨3, _⟩ => ⟨S1024x27x27, .f32⟩
  | .local _ .vmem, ⟨4, _⟩ => ⟨S1024x480, .f32⟩
  | .local _ .vmem, ⟨5, _⟩ => ⟨S1024x480, .f32⟩
  | .local _ .vmem, ⟨6, _⟩ => ⟨S480x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S256x1, .bf16⟩
  | .local _ .vmem, ⟨15, _⟩ => ⟨S1x1, .f32⟩
  | .local _ .vmem, ⟨16, _⟩ => ⟨S1024x1, .f32⟩
  | .local _ .vmem, ⟨17, _⟩ => ⟨S1024x1, .f32⟩
  | _, _ => ⟨S32768x27x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v0 : Ref sig .tc := ⟨.hbm, 15, rfl⟩
abbrev main_v1 : Ref sig .tc := ⟨.hbm, 16, rfl⟩
abbrev main_c_3 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x27x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x27x27 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x480 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S480x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  inb_S1024x27x128_S1024x27x128_0_0_0 : ∀ a, (![0, 0, 0] : Fin 3 → Nat) a + S1024x27x128.size a ≤ S1024x27x128.size a
  h_S1024x27x128 : 0 < S1024x27x128.numel
  shapeCasts_S1024x27x128_S1024x27x128 : S1024x27x128.ShapeCasts S1024x27x128
  inb_S1024x27x27_S1024x27x27_0_0_0 : ∀ a, (![0, 0, 0] : Fin 3 → Nat) a + S1024x27x27.size a ≤ S1024x27x27.size a
  h_S1024x27x27 : 0 < S1024x27x27.numel
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  slices_S32768x27x128_S32768x1x128_0_0_0 : S32768x27x128.Slices ![0, 0, 0] S32768x1x128
  shapeCasts_S32768x1x128_S32768x128 : S32768x1x128.ShapeCasts S32768x128
  bcast_S_S32768x1 : S_.BroadcastsInDim S32768x1 (![] : Fin 0 → Fin S32768x1.rank)
  concatenates_S32768x128_S32768x351_S32768x1_S32768x480_d1 : Shape.Concatenates [S32768x128, S32768x351, S32768x1] S32768x480 1
  transposes_S1024x480_S480x1024_1_0 : S1024x480.Transposes [1, 0] S480x1024
  transposes_S1024x1024_S1024x1024_1_0 : S1024x1024.Transposes [1, 0] S1024x1024
  transposes_S512x1024_S1024x512_1_0 : S512x1024.Transposes [1, 0] S1024x512
  transposes_S256x512_S512x256_1_0 : S256x512.Transposes [1, 0] S512x256
  transposes_S1x256_S256x1_1_0 : S1x256.Transposes [1, 0] S256x1
  shapeCasts_S1024_S1x1024 : S1024.ShapeCasts S1x1024
  shapeCasts_S512_S1x512 : S512.ShapeCasts S1x512
  shapeCasts_S256_S1x256 : S256.ShapeCasts S1x256
  shapeCasts_S1_S1x1 : S1.ShapeCasts S1x1
  inb_S1024x480_S1024x480_0_0 : ∀ a, (![0, 0] : Fin 2 → Nat) a + S1024x480.size a ≤ S1024x480.size a
  h_S1024x480 : 0 < S1024x480.numel
  shapeCasts_S1024x480_S1024x480 : S1024x480.ShapeCasts S1024x480
  inb_S480x1024_S480x1024_0_0 : ∀ a, (![0, 0] : Fin 2 → Nat) a + S480x1024.size a ≤ S480x1024.size a
  h_S480x1024 : 0 < S480x1024.numel
  shapeCasts_S480x1024_S480x1024 : S480x1024.ShapeCasts S480x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x27x128_S1024x27x128_S1024x27x27_2_2_1_1_0_0_wf : DotDims.WF S1024x27x128 S1024x27x128 S1024x27x27 [2] [2] [1] [1] [0] [0]
  gather_S32768x27x27_S351x2_S32768x351_0_12_n_n_12_1_3276811_wf : GatherDims.WF S32768x27x27 S351x2 S32768x351 [0] [1, 2] [] [1, 2] [] 1 ![32768, 1, 1]
  dot_S1024x480_S480x1024_S1024x1024_1_0_0_1_n_n_wf : DotDims.WF S1024x480 S480x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x27x128.size a ≤ S32768x27x128.size a
  hwx0_0 : ∀ i : grid0.Coords, EltTy.bits .bf16 = 32 ∨ (Rect.block (s := S32768x27x128) S1024x27x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x27x27.size a ≤ S32768x27x27.size a
  hwx0_1 : ∀ i : grid0.Coords, EltTy.bits .f32 = 32 ∨ (Rect.block (s := S32768x27x27) S1024x27x27.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x480.size a ≤ S32768x480.size a
  hwx1_0 : ∀ i : grid1.Coords, EltTy.bits .f32 = 32 ∨ (Rect.block (s := S32768x480) S1024x480.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S480x1024.size a ≤ S480x1024.size a
  hwx1_1 : ∀ i : grid1.Coords, EltTy.bits .bf16 = 32 ∨ (Rect.block (s := S480x1024) S480x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .bf16 = 32 ∨ (Rect.block (s := S512x256) S512x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .bf16 = 32 ∨ (Rect.block (s := S256x1) S256x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x1.size a ≤ S32768x1.size a
  hwx1_11 : ∀ i : grid1.Coords, EltTy.bits .f32 = 32 ∨ (Rect.block (s := S32768x1) S1024x1.size (cc1_transform_11 i) (hinb1_11 i)).WholeWords (EltTy.packing .f32)

variable [Facts₀]

def dot_S1024x27x128_S1024x27x128_S1024x27x27_2_2_1_1_0_0 : DotDims S1024x27x128 S1024x27x128 S1024x27x27 where
  lhsContracting := [2]
  rhsContracting := [2]
  lhsNonContracting := [1]
  rhsNonContracting := [1]
  lhsBatch := [0]
  rhsBatch := [0]
  wf := dot_S1024x27x128_S1024x27x128_S1024x27x27_2_2_1_1_0_0_wf
def gather_S32768x27x27_S351x2_S32768x351_0_12_n_n_12_1_3276811 : GatherDims S32768x27x27 S351x2 S32768x351 where
  offsetDims := [0]
  collapsedSliceDims := [1, 2]
  operandBatchingDims := []
  startIndicesBatchingDims := []
  startIndexMap := [1, 2]
  indexVectorDim := 1
  sliceSizes := ![32768, 1, 1]
  wf := gather_S32768x27x27_S351x2_S32768x351_0_12_n_n_12_1_3276811_wf
def dot_S1024x480_S480x1024_S1024x1024_1_0_0_1_n_n : DotDims S1024x480 S480x1024 S1024x1024 where
  lhsContracting := [1]
  rhsContracting := [0]
  lhsNonContracting := [0]
  rhsNonContracting := [1]
  lhsBatch := []
  rhsBatch := []
  wf := dot_S1024x480_S480x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1024x27x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x27x27.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v15) S1024x480.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S480x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S1024x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S32768x27x128 : Shape := ⟨3, ![32768, 27, 128]⟩
abbrev S1024x480 : Shape := ⟨2, ![1024, 480]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S1x256 : Shape := ⟨2, ![1, 256]⟩
abbrev S1 : Shape := ⟨1, ![1]⟩
abbrev S351 : Shape := ⟨1, ![351]⟩
abbrev S32768x1x128 : Shape := ⟨3, ![32768, 1, 128]⟩
abbrev S32768x128 : Shape := ⟨2, ![32768, 128]⟩
abbrev S32768x27x27 : Shape := ⟨3, ![32768, 27, 27]⟩
abbrev S_ : Shape := ⟨0, ![]⟩
abbrev S351x1 : Shape := ⟨2, ![351, 1]⟩
abbrev S351x2 : Shape := ⟨2, ![351, 2]⟩
abbrev S32768x351 : Shape := ⟨2, ![32768, 351]⟩
abbrev S32768x1 : Shape := ⟨2, ![32768, 1]⟩
abbrev S32768x480 : Shape := ⟨2, ![32768, 480]⟩
abbrev S480x1024 : Shape := ⟨2, ![480, 1024]⟩
abbrev S32768x1024 : Shape := ⟨2, ![32768, 1024]⟩
abbrev S1x1024 : Shape := ⟨2, ![1, 1024]⟩
abbrev S1024x512 : Shape := ⟨2, ![1024, 512]⟩
abbrev S32768x512 : Shape := ⟨2, ![32768, 512]⟩
abbrev S1x512 : Shape := ⟨2, ![1, 512]⟩
abbrev S512x256 : Shape := ⟨2, ![512, 256]⟩
abbrev S32768x256 : Shape := ⟨2, ![32768, 256]⟩
abbrev S256x1 : Shape := ⟨2, ![256, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32768x27x128, .f32⟩
  | .hbm, ⟨1, _⟩ => ⟨S1024x480, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S351, .i32⟩
  | .hbm, ⟨12, _⟩ => ⟨S351, .i1⟩
  | .hbm, ⟨13, _⟩ => ⟨S351, .i32⟩
  | .hbm, ⟨14, _⟩ => ⟨S351, .i1⟩
  | .hbm, ⟨15, _⟩ => ⟨S32768x1x128, .f32⟩
  | .hbm, ⟨16, _⟩ => ⟨S32768x128, .f32⟩
  | .hbm, ⟨17, _⟩ => ⟨S32768x27x27, .f32⟩
  | .hbm, ⟨18, _⟩ => ⟨S_, .i32⟩
  | .hbm, ⟨19, _⟩ => ⟨S351, .i32⟩
  | .hbm, ⟨20, _⟩ => ⟨S351, .i32⟩
  | .hbm, ⟨21, _⟩ => ⟨S351, .i32⟩
  | .hbm, ⟨22, _⟩ => ⟨S_, .i32⟩
  | .hbm, ⟨23, _⟩ => ⟨S351, .i32⟩
  | .hbm, ⟨24, _⟩ => ⟨S351, .i32⟩
  | .hbm, ⟨25, _⟩ => ⟨S351, .i32⟩
  | .hbm, ⟨26, _⟩ => ⟨S351x1, .i32⟩
  | .hbm, ⟨27, _⟩ => ⟨S351x1, .i32⟩
  | .hbm, ⟨28, _⟩ => ⟨S351x2, .i32⟩
  | .hbm, ⟨29, _⟩ => ⟨S32768x351, .f32⟩
  | .hbm, ⟨30, _⟩ => ⟨S_, .f32⟩
  | .hbm, ⟨31, _⟩ => ⟨S32768x1, .f32⟩
  | .hbm, ⟨32, _⟩ => ⟨S32768x480, .f32⟩
  | .hbm, ⟨33, _⟩ => ⟨S480x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S1024x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S1024x512, .f32⟩
  | .hbm, ⟨50, _⟩ => ⟨S32768x512, .f32⟩
  | .hbm, ⟨51, _⟩ => ⟨S1x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S512x256, .f32⟩
  | .hbm, ⟨58, _⟩ => ⟨S32768x256, .f32⟩
  | .hbm, ⟨59, _⟩ => ⟨S1x256, .f32⟩
  | .hbm, ⟨60, _⟩ => ⟨S32768x256, .f32⟩
  | .hbm, ⟨61, _⟩ => ⟨S32768x256, .f32⟩
  | .hbm, ⟨62, _⟩ => ⟨S_, .f32⟩
  | .hbm, ⟨63, _⟩ => ⟨S32768x256, .f32⟩
  | .hbm, ⟨64, _⟩ => ⟨S32768x256, .f32⟩
  | .hbm, ⟨65, _⟩ => ⟨S256x1, .f32⟩
  | .hbm, ⟨66, _⟩ => ⟨S32768x1, .f32⟩
  | .hbm, ⟨67, _⟩ => ⟨S1x1, .f32⟩
  | .hbm, ⟨68, _⟩ => ⟨S32768x1, .f32⟩
  | .hbm, ⟨69, _⟩ => ⟨S32768x1, .f32⟩
  | _, _ => ⟨S32768x27x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_3 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_cst : Ref sig .tc := ⟨.hbm, 46, rfl⟩
abbrev main_call1_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_cst : Ref sig .tc := ⟨.hbm, 62, rfl⟩
abbrev main_call3_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  slices_S32768x27x128_S32768x1x128_0_0_0 : S32768x27x128.Slices ![0, 0, 0] S32768x1x128
  shapeCasts_S32768x1x128_S32768x128 : S32768x1x128.ShapeCasts S32768x128
  bcast_S_S351 : S_.BroadcastsInDim S351 (![] : Fin 0 → Fin S351.rank)
  bcast_S351_S351x1_0 : S351.BroadcastsInDim S351x1 (![0] : Fin 1 → Fin S351x1.rank)
  concatenates_S351x1_S351x1_S351x2_d1 : Shape.Concatenates [S351x1, S351x1] S351x2 1
  bcast_S_S32768x1 : S_.BroadcastsInDim S32768x1 (![] : Fin 0 → Fin S32768x1.rank)
  concatenates_S32768x128_S32768x351_S32768x1_S32768x480_d1 : Shape.Concatenates [S32768x128, S32768x351, S32768x1] S32768x480 1
  transposes_S1024x480_S480x1024_1_0 : S1024x480.Transposes [1, 0] S480x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S1024x1024_S1024x1024_1_0 : S1024x1024.Transposes [1, 0] S1024x1024
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S1x256_S256x1_1_0 : S1x256.Transposes [1, 0] S256x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x27x128_S32768x27x128_S32768x27x27_2_2_1_1_0_0_wf : DotDims.WF S32768x27x128 S32768x27x128 S32768x27x27 [2] [2] [1] [1] [0] [0]
  gather_S32768x27x27_S351x2_S32768x351_0_12_n_n_12_1_3276811_wf : GatherDims.WF S32768x27x27 S351x2 S32768x351 [0] [1, 2] [] [1, 2] [] 1 ![32768, 1, 1]
  dot_S32768x480_S480x1024_S32768x1024_1_0_0_1_n_n_wf : DotDims.WF S32768x480 S480x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x512_S32768x512_1_0_0_1_n_n_wf : DotDims.WF S32768x1024 S1024x512 S32768x512 [1] [0] [0] [1] [] []
  dot_S32768x512_S512x256_S32768x256_1_0_0_1_n_n_wf : DotDims.WF S32768x512 S512x256 S32768x256 [1] [0] [0] [1] [] []
  dot_S32768x256_S256x1_S32768x1_1_0_0_1_n_n_wf : DotDims.WF S32768x256 S256x1 S32768x1 [1] [0] [0] [1] [] []

variable [Facts₀]

def dot_S32768x27x128_S32768x27x128_S32768x27x27_2_2_1_1_0_0 : DotDims S32768x27x128 S32768x27x128 S32768x27x27 where
  lhsContracting := [2]
  rhsContracting := [2]
  lhsNonContracting := [1]
  rhsNonContracting := [1]
  lhsBatch := [0]
  rhsBatch := [0]
  wf := dot_S32768x27x128_S32768x27x128_S32768x27x27_2_2_1_1_0_0_wf
def gather_S32768x27x27_S351x2_S32768x351_0_12_n_n_12_1_3276811 : GatherDims S32768x27x27 S351x2 S32768x351 where
  offsetDims := [0]
  collapsedSliceDims := [1, 2]
  operandBatchingDims := []
  startIndicesBatchingDims := []
  startIndexMap := [1, 2]
  indexVectorDim := 1
  sliceSizes := ![32768, 1, 1]
  wf := gather_S32768x27x27_S351x2_S32768x351_0_12_n_n_12_1_3276811_wf
def dot_S32768x480_S480x1024_S32768x1024_1_0_0_1_n_n : DotDims S32768x480 S480x1024 S32768x1024 where
  lhsContracting := [1]
  rhsContracting := [0]
  lhsNonContracting := [0]
  rhsNonContracting := [1]
  lhsBatch := []
  rhsBatch := []
  wf := dot_S32768x480_S480x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.KFrameBody0.lean ====
/-
  Region 0 of the kernel's program: the batched product of every example's 27×128 block with its own transpose.
  Stated at a PARAMETER `V`, the contents of the TensorCore's buffers when the region is entered: what each window's
  block is at a grid point, what the body leaves in the output window's staging buffer (the one store's value over the
  one loaded block), the body's triple, the pipeline's proof data and the body obligation at every point.
  Point `t` of the 32 loads rows [1024·t, 1024·t + 1024) of the [32768, 27, 128] operand and stores the same rows of
  the [32768, 27, 27] result.
-/
import proofs.«140031_j6116033429805_1_alg».proof.Proof.Gen.Kernel.Launch
import proofs.«140031_j6116033429805_1_alg».proof.Proof.Gen.Kernel.Skeleton
import proofs.«140031_j6116033429805_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The operand's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [1024, 27, 128] block: the one rectangle the body loads. -/
abbrev rIn0 : Rect S1024x27x128 := Rect.unit (s := S1024x27x128) ![0, 0, 0] S1024x27x128.size inb_S1024x27x128_S1024x27x128_0_0_0
/-- The whole [1024, 27, 27] block: the one rectangle the body stores. -/
abbrev rOut0 : Rect S1024x27x27 := Rect.unit (s := S1024x27x27) ![0, 0, 0] S1024x27x27.size inb_S1024x27x27_S1024x27x27_0_0_0

/-- The result window's staging buffer after the body: its one store, the batched product of the loaded block. -/
def out0_1 (x0 : Vec F S1024x27x128 .bf16) : Vec F S1024x27x27 .f32 :=
  View.canon [⟨rOut0, k0_pay1 (View.ld x0 rIn0)⟩]

/-- The one store covers the buffer. -/
theorem cover0_1 (p0 : Vec F S1024x27x27 .f32) (y : S1024x27x27.Idx) :
    ∃ pc ∈ ([⟨rOut0, p0⟩] : List (View.Piece (Elt F) S1024x27x27 .f32)), y ∈ pc.1.set :=
  View.cover_of_tiled [⟨rOut0, p0⟩] S1024x27x27.size (by rfl) y

set_option maxHeartbeats 1000000 in
/-- The body on whole staging memrefs, the operand's at contents `x0` and the result's at anything, runs to the
    continuation with the operand's as it was and the result's at `out0_1 x0`. -/
theorem sound_kernel0 (c : Dev nD) (E : Set ℕ) (i : grid0.Coords) (arg1 : Memref sig .tc .vmem S1024x27x128 .bf16) (harg1 : arg1.IsWhole)
    (arg2 : Memref sig .tc .vmem S1024x27x27 .f32) (harg2 : arg2.IsWhole)
    (x0 : Vec F S1024x27x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bmm_kernel i arg1 harg1 arg2 harg2) K := by
  simp only [cc0__bmm_kernel_eq_skeleton]; unfold cc0__bmm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    operand's buffer at its block and the result's at `out0_1` of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameDefs1.lean ====
/-
  Region 1 of the kernel's program, the five-layer network on blocks of 1024 rows: its definitions.
  At a PARAMETER `V` (the TensorCore's buffer contents when the region is entered): window `w`'s block at point `t`;
  the whole-buffer rectangles the body loads and stores through; and what the body leaves in the result window's
  staging buffer, its one store's value over the eleven loaded blocks. Window 0 is the block of rows
  [1024·t, 1024·t + 1024) of the [32768, 480] input; windows 1 to 10 are the weights and biases whole, the same at
  every point; window 11 is the same block of rows of the [32768, 1] result.
-/
import proofs.«140031_j6116033429805_1_alg».proof.Proof.Gen.Kernel.Launch
import proofs.«140031_j6116033429805_1_alg».proof.Proof.Gen.Kernel.Skeleton
import proofs.«140031_j6116033429805_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles of the body's loads and its store, one per shape. -/
abbrev rX : Rect S1024x480 := Rect.unit (s := S1024x480) ![0, 0] S1024x480.size inb_S1024x480_S1024x480_0_0
abbrev rW0 : Rect S480x1024 := Rect.unit (s := S480x1024) ![0, 0] S480x1024.size inb_S480x1024_S480x1024_0_0
abbrev rB1024 : Rect S1x1024 := Rect.unit (s := S1x1024) ![0, 0] S1x1024.size inb_S1x1024_S1x1024_0_0
abbrev rW1 : Rect S1024x1024 := Rect.unit (s := S1024x1024) ![0, 0] S1024x1024.size inb_S1024x1024_S1024x1024_0_0
abbrev rW2 : Rect S1024x512 := Rect.unit (s := S1024x512) ![0, 0] S1024x512.size inb_S1024x512_S1024x512_0_0
abbrev rB512 : Rect S1x512 := Rect.unit (s := S1x512) ![0, 0] S1x512.size inb_S1x512_S1x512_0_0
abbrev rW3 : Rect S512x256 := Rect.unit (s := S512x256) ![0, 0] S512x256.size inb_S512x256_S512x256_0_0
abbrev rB256 : Rect S1x256 := Rect.unit (s := S1x256) ![0, 0] S1x256.size inb_S1x256_S1x256_0_0
abbrev rW4 : Rect S256x1 := Rect.unit (s := S256x1) ![0, 0] S256x1.size inb_S256x1_S256x1_0_0
abbrev rB1 : Rect S1x1 := Rect.unit (s := S1x1) ![0, 0] S1x1.size inb_S1x1_S1x1_0_0
abbrev rOut1 : Rect S1024x1 := Rect.unit (s := S1024x1) ![0, 0] S1024x1.size inb_S1024x1_S1024x1_0_0

/-- The result window's staging buffer after the body: its one store, the last layer's value over the first four
    layers' (the body's two payloads), each loaded block read whole. -/
def out1_11 (x0 : Vec F S1024x480 .f32) (x1 : Vec F S480x1024 .bf16) (x2 : Vec F S1x1024 .f32) (x3 : Vec F S1024x1024 .bf16)
    (x4 : Vec F S1x1024 .f32) (x5 : Vec F S1024x512 .bf16) (x6 : Vec F S1x512 .f32) (x7 : Vec F S512x256 .bf16)
    (x8 : Vec F S1x256 .f32) (x9 : Vec F S256x1 .bf16) (x10 : Vec F S1x1 .f32) : Vec F S1024x1 .f32 :=
  View.canon [⟨rOut1, k1_pay1 (k1_pay2 (View.ld x0 rX) (View.ld x1 rW0) (View.ld x2 rB1024) (View.ld x3 rW1) (View.ld x4 rB1024)
    (View.ld x5 rW2) (View.ld x6 rB512) (View.ld x7 rW3)) (View.ld x8 rB256) (View.ld x9 rW4) (View.ld x10 rB1)⟩]

end Cert.Kernel.Hand

end
-- ==== Proof.KFrameBody1.lean ====
/-
  Region 1 of the kernel's program, the five-layer network on blocks of 1024 rows: its body.
  Stated at a PARAMETER `V`, the contents of the TensorCore's buffers when the region is entered: that each input
  window's current staging buffer holds its block at every point (the rows' block moves with the point and is fetched
  at each; the weights and biases are whole, fetched once, and stay), that the one store covers the result's staging
  buffer, the body's triple, the pipeline's proof data and the body obligation at every point.
  Point `t` of the 32 loads rows [1024·t, 1024·t + 1024) of the [32768, 480] input and the ten weights and biases whole,
  and stores the same rows of the [32768, 1] result.
-/
import proofs.«140031_j6116033429805_1_alg».proof.Proof.KFrameDefs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's staging buffer

  For any proof data whose array is `V`'s and whose body leaves the block in place, the window's current staging
  buffer holds its block at every point: fetched there, it is the fetch; not fetched there, the block index has not
  moved since the point before. Window 0's index is the point; windows 1 to 10 have a constant index. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The one store covers the result's staging buffer. -/
theorem cover1_11 (p0 : Vec F S1024x1 .f32) (y : S1024x1.Idx) :
    ∃ pc ∈ ([⟨rOut1, p0⟩] : List (View.Piece (Elt F) S1024x1 .f32)), y ∈ pc.1.set :=
  View.cover_of_tiled [⟨rOut1, p0⟩] S1024x1.size (by rfl) y

/-! ## The body's triple -/

set_option maxHeartbeats 4000000 in
/-- The body on whole staging memrefs, the eleven inputs' at contents `x0` … `x10` and the result's at anything, runs
    to the continuation with the inputs' as they were and the result's at `out1_11` of the inputs': the first four
    layers are read in the called part, the last layer and the store in the body itself. -/
theorem sound_kernel1 (c : Dev nD) (E : Set ℕ) (i : grid1.Coords)
    (arg1 : Memref sig .tc .vmem S1024x480 .f32) (harg1 : arg1.IsWhole)
    (arg2 : Memref sig .tc .vmem S480x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x512 .bf16) (harg6 : arg6.IsWhole)
    (arg7 : Memref sig .tc .vmem S1x512 .f32) (harg7 : arg7.IsWhole)
    (arg8 : Memref sig .tc .vmem S512x256 .bf16) (harg8 : arg8.IsWhole)
    (arg9 : Memref sig .tc .vmem S1x256 .f32) (harg9 : arg9.IsWhole)
    (arg10 : Memref sig .tc .vmem S256x1 .bf16) (harg10 : arg10.IsWhole)
    (arg11 : Memref sig .tc .vmem S1x1 .f32) (harg11 : arg11.IsWhole)
    (arg12 : Memref sig .tc .vmem S1024x1 .f32) (harg12 : arg12.IsWhole)
    (x0 : Vec F S1024x480 .f32) (x1 : Vec F S480x1024 .bf16) (x2 : Vec F S1x1024 .f32) (x3 : Vec F S1024x1024 .bf16) (x4 : Vec F S1x1024 .f32) (x5 : Vec F S1024x512 .bf16) (x6 : Vec F S1x512 .f32) (x7 : Vec F S512x256 .bf16) (x8 : Vec F S1x256 .f32) (x9 : Vec F S256x1 .bf16) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out1_11 x0 x1 x2 x3 x4 x5 x6 x7 x8 x9 x10)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of pipeline 1 on core `c`: the arrays as the region finds them; after the body at point `t` each
    input's buffer at its block and the result's at `out1_11` of the eleven blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFrameRun.lean ====
/-
  The run of the kernel's program: host operations, region 0, host operations, region 1.
  The contents of the TensorCore's unscoped buffers are followed through the five boundaries: at launch (`W0`), after the
  first host stretch (`W1`), after region 0 (`W2`: its result array at what its 32 write-backs leave, everything else as
  entered), after the second host stretch (`W3`), after region 1 (`W4`, likewise). Every weakly fair execution
  terminates without a fault in a memory that holds every unscoped buffer at `W4`. Read at an argument array, which no
  host operation writes and no region has as a result, `W4` is the launch contents; read at the program's result it is
  what region 1's write-backs leave.
-/
import proofs.«140031_j6116033429805_1_alg».proof.Proof.KFrameBody0
import proofs.«140031_j6116033429805_1_alg».proof.Proof.KFrameBody1
import proofs.«140031_j6116033429805_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: region 0 is entered from these. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: region 1 is entered from these. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer that is no array of either region and that neither host stretch writes ends as launched. -/
theorem W4_kept (c : Dev nD) (r : Ref sig .tc) (h3 : ∀ w, Pipeline.arrRef spec1 w ≠ r) (h2 : r ∉ hostOps1_W)
    (h1 : ∀ w, Pipeline.arrRef spec0 w ≠ r) (h0 : r ∉ hostOps0_W) :
    W4 m ρ c (Proc.devRef .tc r) = m ((c : Thread nD τ).loc r) :=
  (W4_of_ne m ρ c r h3).trans <| (StableHlo.after_of_writes_sub hostOps1 _ hostOps1_writes h2).trans <|
    (W2_of_ne m ρ c r h1).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ noVar noL noLv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ noL noLv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ noVar noL noLv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ noL noLv 1 fun _ _ => rfl
  pre c := iprop(StableHlo.held (c : Thread nD τ) (Pipeline.ucRefs τ sig) (W3 m ρ c) ∗ rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm (pdats m ρ) () defs₀ noVar noL noLv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (msegs m ρ) := (main_chain c).trans (by chain_rfl)

set_option backward.isDefEq.respectTransparency.types false in
/-- THE RUN. From any memory with zero counters every weakly fair execution of @main terminates, nothing faulting, in a
    memory that holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVar noL noLv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := Tlast m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The final memory at a TensorCore reference that is not scoped. -/
theorem run_at : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W4 m ρ c (Proc.devRef .tc b)) :=
  (θ_run defs _ _).mono (fun _ h c b hb => h c _ (mem_uc b hb)) (run_all m ρ)

/-- The program's frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_arg0 (by decide)).trans (W4_kept m ρ c main_arg0 (by decide) (by decide) (by decide) (by decide)),
     (h c main_arg1 (by decide)).trans (W4_kept m ρ c main_arg1 (by decide) (by decide) (by decide) (by decide)),
     (h c main_arg2 (by decide)).trans (W4_kept m ρ c main_arg2 (by decide) (by decide) (by decide) (by decide)),
     (h c main_arg3 (by decide)).trans (W4_kept m ρ c main_arg3 (by decide) (by decide) (by decide) (by decide)),
     (h c main_arg4 (by decide)).trans (W4_kept m ρ c main_arg4 (by decide) (by decide) (by decide) (by decide)),
     (h c main_arg5 (by decide)).trans (W4_kept m ρ c main_arg5 (by decide) (by decide) (by decide) (by decide)),
     (h c main_arg6 (by decide)).trans (W4_kept m ρ c main_arg6 (by decide) (by decide) (by decide) (by decide)),
     (h c main_arg7 (by decide)).trans (W4_kept m ρ c main_arg7 (by decide) (by decide) (by decide) (by decide)),
     (h c main_arg8 (by decide)).trans (W4_kept m ρ c main_arg8 (by decide) (by decide) (by decide) (by decide)),
     (h c main_arg9 (by decide)).trans (W4_kept m ρ c main_arg9 (by decide) (by decide) (by decide) (by decide)),
     (h c main_arg10 (by decide)).trans (W4_kept m ρ c main_arg10 (by decide) (by decide) (by decide) (by decide))⟩) (run_at m ρ)

end Cert.Kernel.Hand

end
-- ==== Proof.FrameBody0.lean ====
/-
  Region 0 of the kernel's program: the batched product of every example's 27×128 block with its own transpose.
  Stated at a PARAMETER `V`, the contents of the TensorCore's buffers when the region is entered: what each window's
  block is at a grid point, what the body leaves in the output window's staging buffer (the one store's value over the
  one loaded block), the body's triple, the pipeline's proof data and the body obligation at every point.
  Point `t` of the 32 loads rows [1024·t, 1024·t + 1024) of the [32768, 27, 128] operand and stores the same rows of
  the [32768, 27, 27] result.
-/
import proofs.«140031_j6116033429805_1_alg».proof.Proof.Gen.KernelIdeal.Launch
import proofs.«140031_j6116033429805_1_alg».proof.Proof.Gen.KernelIdeal.Skeleton
import proofs.«140031_j6116033429805_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The operand's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [1024, 27, 128] block: the one rectangle the body loads. -/
abbrev rIn0 : Rect S1024x27x128 := Rect.unit (s := S1024x27x128) ![0, 0, 0] S1024x27x128.size inb_S1024x27x128_S1024x27x128_0_0_0
/-- The whole [1024, 27, 27] block: the one rectangle the body stores. -/
abbrev rOut0 : Rect S1024x27x27 := Rect.unit (s := S1024x27x27) ![0, 0, 0] S1024x27x27.size inb_S1024x27x27_S1024x27x27_0_0_0

/-- The result window's staging buffer after the body: its one store, the batched product of the loaded block. -/
def out0_1 (x0 : Vec F S1024x27x128 .bf16) : Vec F S1024x27x27 .f32 :=
  View.canon [⟨rOut0, k0_pay1 (View.ld x0 rIn0)⟩]

/-- The one store covers the buffer. -/
theorem cover0_1 (p0 : Vec F S1024x27x27 .f32) (y : S1024x27x27.Idx) :
    ∃ pc ∈ ([⟨rOut0, p0⟩] : List (View.Piece (Elt F) S1024x27x27 .f32)), y ∈ pc.1.set :=
  View.cover_of_tiled [⟨rOut0, p0⟩] S1024x27x27.size (by rfl) y

set_option maxHeartbeats 1000000 in
/-- The body on whole staging memrefs, the operand's at contents `x0` and the result's at anything, runs to the
    continuation with the operand's as it was and the result's at `out0_1 x0`. -/
theorem sound_kernel0 (c : Dev nD) (E : Set ℕ) (i : grid0.Coords) (arg1 : Memref sig .tc .vmem S1024x27x128 .bf16) (harg1 : arg1.IsWhole)
    (arg2 : Memref sig .tc .vmem S1024x27x27 .f32) (harg2 : arg2.IsWhole)
    (x0 : Vec F S1024x27x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__bmm_kernel i arg1 harg1 arg2 harg2) K := by
  simp only [cc0__bmm_kernel_eq_skeleton]; unfold cc0__bmm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    operand's buffer at its block and the result's at `out0_1` of that block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameDefs1.lean ====
/-
  Region 1 of the kernel's program, the five-layer network on blocks of 1024 rows: its definitions.
  At a PARAMETER `V` (the TensorCore's buffer contents when the region is entered): window `w`'s block at point `t`;
  the whole-buffer rectangles the body loads and stores through; and what the body leaves in the result window's
  staging buffer, its one store's value over the eleven loaded blocks. Window 0 is the block of rows
  [1024·t, 1024·t + 1024) of the [32768, 480] input; windows 1 to 10 are the weights and biases whole, the same at
  every point; window 11 is the same block of rows of the [32768, 1] result.
-/
import proofs.«140031_j6116033429805_1_alg».proof.Proof.Gen.KernelIdeal.Launch
import proofs.«140031_j6116033429805_1_alg».proof.Proof.Gen.KernelIdeal.Skeleton
import proofs.«140031_j6116033429805_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles of the body's loads and its store, one per shape. -/
abbrev rX : Rect S1024x480 := Rect.unit (s := S1024x480) ![0, 0] S1024x480.size inb_S1024x480_S1024x480_0_0
abbrev rW0 : Rect S480x1024 := Rect.unit (s := S480x1024) ![0, 0] S480x1024.size inb_S480x1024_S480x1024_0_0
abbrev rB1024 : Rect S1x1024 := Rect.unit (s := S1x1024) ![0, 0] S1x1024.size inb_S1x1024_S1x1024_0_0
abbrev rW1 : Rect S1024x1024 := Rect.unit (s := S1024x1024) ![0, 0] S1024x1024.size inb_S1024x1024_S1024x1024_0_0
abbrev rW2 : Rect S1024x512 := Rect.unit (s := S1024x512) ![0, 0] S1024x512.size inb_S1024x512_S1024x512_0_0
abbrev rB512 : Rect S1x512 := Rect.unit (s := S1x512) ![0, 0] S1x512.size inb_S1x512_S1x512_0_0
abbrev rW3 : Rect S512x256 := Rect.unit (s := S512x256) ![0, 0] S512x256.size inb_S512x256_S512x256_0_0
abbrev rB256 : Rect S1x256 := Rect.unit (s := S1x256) ![0, 0] S1x256.size inb_S1x256_S1x256_0_0
abbrev rW4 : Rect S256x1 := Rect.unit (s := S256x1) ![0, 0] S256x1.size inb_S256x1_S256x1_0_0
abbrev rB1 : Rect S1x1 := Rect.unit (s := S1x1) ![0, 0] S1x1.size inb_S1x1_S1x1_0_0
abbrev rOut1 : Rect S1024x1 := Rect.unit (s := S1024x1) ![0, 0] S1024x1.size inb_S1024x1_S1024x1_0_0

/-- The result window's staging buffer after the body: its one store, the last layer's value over the first four
    layers' (the body's two payloads), each loaded block read whole. -/
def out1_11 (x0 : Vec F S1024x480 .f32) (x1 : Vec F S480x1024 .bf16) (x2 : Vec F S1x1024 .f32) (x3 : Vec F S1024x1024 .bf16)
    (x4 : Vec F S1x1024 .f32) (x5 : Vec F S1024x512 .bf16) (x6 : Vec F S1x512 .f32) (x7 : Vec F S512x256 .bf16)
    (x8 : Vec F S1x256 .f32) (x9 : Vec F S256x1 .bf16) (x10 : Vec F S1x1 .f32) : Vec F S1024x1 .f32 :=
  View.canon [⟨rOut1, k1_pay1 (k1_pay2 (View.ld x0 rX) (View.ld x1 rW0) (View.ld x2 rB1024) (View.ld x3 rW1) (View.ld x4 rB1024)
    (View.ld x5 rW2) (View.ld x6 rB512) (View.ld x7 rW3)) (View.ld x8 rB256) (View.ld x9 rW4) (View.ld x10 rB1)⟩]

end Cert.KernelIdeal.Hand

end
-- ==== Proof.FrameBody1.lean ====
/-
  Region 1 of the kernel's program, the five-layer network on blocks of 1024 rows: its body.
  Stated at a PARAMETER `V`, the contents of the TensorCore's buffers when the region is entered: that each input
  window's current staging buffer holds its block at every point (the rows' block moves with the point and is fetched
  at each; the weights and biases are whole, fetched once, and stay), that the one store covers the result's staging
  buffer, the body's triple, the pipeline's proof data and the body obligation at every point.
  Point `t` of the 32 loads rows [1024·t, 1024·t + 1024) of the [32768, 480] input and the ten weights and biases whole,
  and stores the same rows of the [32768, 1] result.
-/
import proofs.«140031_j6116033429805_1_alg».proof.Proof.FrameDefs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's staging buffer

  For any proof data whose array is `V`'s and whose body leaves the block in place, the window's current staging
  buffer holds its block at every point: fetched there, it is the fetch; not fetched there, the block index has not
  moved since the point before. Window 0's index is the point; windows 1 to 10 have a constant index. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The one store covers the result's staging buffer. -/
theorem cover1_11 (p0 : Vec F S1024x1 .f32) (y : S1024x1.Idx) :
    ∃ pc ∈ ([⟨rOut1, p0⟩] : List (View.Piece (Elt F) S1024x1 .f32)), y ∈ pc.1.set :=
  View.cover_of_tiled [⟨rOut1, p0⟩] S1024x1.size (by rfl) y

/-! ## The body's triple -/

set_option maxHeartbeats 4000000 in
/-- The body on whole staging memrefs, the eleven inputs' at contents `x0` … `x10` and the result's at anything, runs
    to the continuation with the inputs' as they were and the result's at `out1_11` of the inputs': the first four
    layers are read in the called part, the last layer and the store in the body itself. -/
theorem sound_kernel1 (c : Dev nD) (E : Set ℕ) (i : grid1.Coords)
    (arg1 : Memref sig .tc .vmem S1024x480 .f32) (harg1 : arg1.IsWhole)
    (arg2 : Memref sig .tc .vmem S480x1024 .bf16) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x512 .bf16) (harg6 : arg6.IsWhole)
    (arg7 : Memref sig .tc .vmem S1x512 .f32) (harg7 : arg7.IsWhole)
    (arg8 : Memref sig .tc .vmem S512x256 .bf16) (harg8 : arg8.IsWhole)
    (arg9 : Memref sig .tc .vmem S1x256 .f32) (harg9 : arg9.IsWhole)
    (arg10 : Memref sig .tc .vmem S256x1 .bf16) (harg10 : arg10.IsWhole)
    (arg11 : Memref sig .tc .vmem S1x1 .f32) (harg11 : arg11.IsWhole)
    (arg12 : Memref sig .tc .vmem S1024x1 .f32) (harg12 : arg12.IsWhole)
    (x0 : Vec F S1024x480 .f32) (x1 : Vec F S480x1024 .bf16) (x2 : Vec F S1x1024 .f32) (x3 : Vec F S1024x1024 .bf16) (x4 : Vec F S1x1024 .f32) (x5 : Vec F S1024x512 .bf16) (x6 : Vec F S1x512 .f32) (x7 : Vec F S512x256 .bf16) (x8 : Vec F S1x256 .f32) (x9 : Vec F S256x1 .bf16) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out1_11 x0 x1 x2 x3 x4 x5 x6 x7 x8 x9 x10)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of pipeline 1 on core `c`: the arrays as the region finds them; after the body at point `t` each
    input's buffer at its block and the result's at `out1_11` of the eleven blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameRun.lean ====
/-
  The run of the kernel's program: host operations, region 0, host operations, region 1.
  The contents of the TensorCore's unscoped buffers are followed through the five boundaries: at launch (`W0`), after the
  first host stretch (`W1`), after region 0 (`W2`: its result array at what its 32 write-backs leave, everything else as
  entered), after the second host stretch (`W3`), after region 1 (`W4`, likewise). Every weakly fair execution
  terminates without a fault in a memory that holds every unscoped buffer at `W4`. Read at an argument array, which no
  host operation writes and no region has as a result, `W4` is the launch contents; read at the program's result it is
  what region 1's write-backs leave.
-/
import proofs.«140031_j6116033429805_1_alg».proof.Proof.FrameBody0
import proofs.«140031_j6116033429805_1_alg».proof.Proof.FrameBody1
import proofs.«140031_j6116033429805_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: region 0 is entered from these. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: region 1 is entered from these. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer that is no array of either region and that neither host stretch writes ends as launched. -/
theorem W4_kept (c : Dev nD) (r : Ref sig .tc) (h3 : ∀ w, Pipeline.arrRef spec1 w ≠ r) (h2 : r ∉ hostOps1_W)
    (h1 : ∀ w, Pipeline.arrRef spec0 w ≠ r) (h0 : r ∉ hostOps0_W) :
    W4 m ρ c (Proc.devRef .tc r) = m ((c : Thread nD τ).loc r) :=
  (W4_of_ne m ρ c r h3).trans <| (StableHlo.after_of_writes_sub hostOps1 _ hostOps1_writes h2).trans <|
    (W2_of_ne m ρ c r h1).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ noVar noL noLv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ noL noLv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ noVar noL noLv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ noL noLv 1 fun _ _ => rfl
  pre c := iprop(StableHlo.held (c : Thread nD τ) (Pipeline.ucRefs τ sig) (W3 m ρ c) ∗ rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev msegs : List (Pipeline.Seg (pcfgs (F := F)) adm (pdats m ρ) () defs₀ noVar noL noLv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (msegs m ρ) := (main_chain c).trans (by chain_rfl)

set_option backward.isDefEq.respectTransparency.types false in
/-- THE RUN. From any memory with zero counters every weakly fair execution of @main terminates, nothing faulting, in a
    memory that holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ noVar noL noLv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := Tlast m ρ)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The final memory at a TensorCore reference that is not scoped. -/
theorem run_at : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W4 m ρ c (Proc.devRef .tc b)) :=
  (θ_run defs _ _).mono (fun _ h c b hb => h c _ (mem_uc b hb)) (run_all m ρ)

/-- The program's frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_arg0 (by decide)).trans (W4_kept m ρ c main_arg0 (by decide) (by decide) (by decide) (by decide)),
     (h c main_arg1 (by decide)).trans (W4_kept m ρ c main_arg1 (by decide) (by decide) (by decide) (by decide)),
     (h c main_arg2 (by decide)).trans (W4_kept m ρ c main_arg2 (by decide) (by decide) (by decide) (by decide)),
     (h c main_arg3 (by decide)).trans (W4_kept m ρ c main_arg3 (by decide) (by decide) (by decide) (by decide)),
     (h c main_arg4 (by decide)).trans (W4_kept m ρ c main_arg4 (by decide) (by decide) (by decide) (by decide)),
     (h c main_arg5 (by decide)).trans (W4_kept m ρ c main_arg5 (by decide) (by decide) (by decide) (by decide)),
     (h c main_arg6 (by decide)).trans (W4_kept m ρ c main_arg6 (by decide) (by decide) (by decide) (by decide)),
     (h c main_arg7 (by decide)).trans (W4_kept m ρ c main_arg7 (by decide) (by decide) (by decide) (by decide)),
     (h c main_arg8 (by decide)).trans (W4_kept m ρ c main_arg8 (by decide) (by decide) (by decide) (by decide)),
     (h c main_arg9 (by decide)).trans (W4_kept m ρ c main_arg9 (by decide) (by decide) (by decide) (by decide)),
     (h c main_arg10 (by decide)).trans (W4_kept m ρ c main_arg10 (by decide) (by decide) (by decide) (by decide))⟩) (run_at m ρ)

end Cert.KernelIdeal.Hand

end
-- ==== Proof.Spec.lean ====
/-
  The mathematics both programs compute, over the extended reals, index by index.
  * `gram x`: for every example `b`, the matrix of pairwise inner products of its rows, entry `(b, n, m)` the sum
    over `k` of `x (b, n, k) · x (b, m, k)`.
  * `dense X W β`: one affine layer, entry `(i, j)` the sum over `k` of `X (i, k) · W (k, j)` plus the bias row's
    entry `β (0, j)`.
  * `relu X`: the entrywise maximum with zero (the zero kept as the float word it is printed as).
  * `mlp`: four layers each followed by `relu`, then a last layer.
  The number of rows is a parameter: a block of rows of `dense X W β` is `dense` of that block of rows of `X`.
-/
import Idealize.ShloMosaic.Lib.ValueIdx
import Idealize.ShloMosaic.PureOps.Ideal

noncomputable section

namespace Cert.Spec

open Idealize.ShloMosaic Idealize.ShloMosaic.ValueIdx

/-- A rank-3 array of extended reals. -/
abbrev A3 (a b c : ℕ) : Type := (⟨3, ![a, b, c]⟩ : Shape).Idx → EReal
/-- A matrix of extended reals. -/
abbrev A2 (a b : ℕ) : Type := (⟨2, ![a, b]⟩ : Shape).Idx → EReal

/-- The inner product of rows `n` and `m` of example `b`. -/
def gramAt {B N K : ℕ} (x : A3 B N K) (b : Fin B) (n m : Fin N) : EReal := ∑ k : Fin K, x (ix3 b n k) * x (ix3 b m k)

/-- Every example's matrix of pairwise inner products. -/
def gram {B N K : ℕ} (x : A3 B N K) : A3 B N N := fun j => gramAt x (j 0) (j 1) (j 2)

theorem gram_apply {B N K : ℕ} (x : A3 B N K) (b : Fin B) (n m : Fin N) : gram x (ix3 b n m) = gramAt x b n m := rfl

/-- Entry `(i, j)` of one affine layer. -/
def denseAt {B K N : ℕ} (X : A2 B K) (W : A2 K N) (β : A2 1 N) (i : Fin B) (j : Fin N) : EReal :=
  (∑ k : Fin K, X (ix2 i k) * W (ix2 k j)) + β (ix2 (0 : Fin 1) j)

/-- One affine layer: `X · W` plus the bias row on every row. -/
def dense {B K N : ℕ} (X : A2 B K) (W : A2 K N) (β : A2 1 N) : A2 B N := fun j => denseAt X W β (j 0) (j 1)

theorem dense_apply {B K N : ℕ} (X : A2 B K) (W : A2 K N) (β : A2 1 N) (i : Fin B) (j : Fin N) :
    dense X W β (ix2 i j) = denseAt X W β i j := rfl

/-- The entrywise maximum with zero. -/
def relu {B N : ℕ} (X : A2 B N) : A2 B N := fun j => max (X j) (Ideal.ofBits .f32 0x00000000#32)

theorem relu_apply {B N : ℕ} (X : A2 B N) (j : (⟨2, ![B, N]⟩ : Shape).Idx) : relu X j = max (X j) (Ideal.ofBits .f32 0x00000000#32) := rfl

/-- The five-layer network 480 → 1024 → 1024 → 512 → 256 → 1 on `B` rows. -/
def mlp {B : ℕ} (X : A2 B 480) (W0 : A2 480 1024) (β0 : A2 1 1024) (W1 : A2 1024 1024) (β1 : A2 1 1024)
    (W2 : A2 1024 512) (β2 : A2 1 512) (W3 : A2 512 256) (β3 : A2 1 256) (W4 : A2 256 1) (β4 : A2 1 1) : A2 B 1 :=
  dense (relu (dense (relu (dense (relu (dense (relu (dense X W0 β0)) W1 β1)) W2 β2)) W3 β3)) W4 β4

/-- A block of `R` consecutive rows of a matrix, from row `off`. -/
def rows {B N : ℕ} (R off : ℕ) (h : off + R ≤ B) (X : A2 B N) : A2 R N :=
  fun j => X (ix2 (⟨off + (j 0).val, by have := idx2_lt0 j; omega⟩ : Fin B) (j 1))

/-- A block of rows of a layer's result is the layer on that block of rows. -/
theorem rows_dense {B K N : ℕ} (R off : ℕ) (h : off + R ≤ B) (X : A2 B K) (W : A2 K N) (β : A2 1 N) :
    rows R off h (dense X W β) = dense (rows R off h X) W β := rfl

theorem rows_relu {B N : ℕ} (R off : ℕ) (h : off + R ≤ B) (X : A2 B N) : rows R off h (relu X) = relu (rows R off h X) := rfl

/-- A block of rows of the network's result is the network on that block of rows of its input. -/
theorem rows_mlp {B : ℕ} (R off : ℕ) (h : off + R ≤ B) (X : A2 B 480) (W0 : A2 480 1024) (β0 : A2 1 1024) (W1 : A2 1024 1024) (β1 : A2 1 1024)
    (W2 : A2 1024 512) (β2 : A2 1 512) (W3 : A2 512 256) (β3 : A2 1 256) (W4 : A2 256 1) (β4 : A2 1 1) :
    rows R off h (mlp X W0 β0 W1 β1 W2 β2 W3 β3 W4 β4) = mlp (rows R off h X) W0 β0 W1 β1 W2 β2 W3 β3 W4 β4 := rfl

end Cert.Spec

end
-- ==== Proof.KTerm.lean ====
/-
  What the kernel's program computes on the host around its two regions, as functions of arrays.
  * `trilIdx`: the [351, 2] integer array of (row, column) pairs of the strict lower triangle of a 27 × 27 matrix,
    as the program builds it from its two literal tables.
  * `feat a I`: the [32768, 480] input of the network: each example's first row of `a` (128 entries), then the 351
    strictly-lower entries of its 27 × 27 matrix `I` picked at `trilIdx`, then one zero.
  * `wT`: a weight matrix transposed; `bRow`: a bias vector as a one-row matrix.
  * `kernelOut`: the network on `feat a (gram a)` with the transposed weights and the bias rows: what the kernel's
    program returns, and what the reference is shown to return.
-/
import proofs.«140031_j6116033429805_1_alg».proof.KernelIdeal
import proofs.«140031_j6116033429805_1_alg».proof.Proof.Spec

noncomputable section

namespace Cert.KernelIdeal.Hand

open Cert.KernelIdeal
open Idealize.ShloMosaic Idealize.SL.Sem

section Terms
variable {F : FTy → Type} [FloatOps F] [hF : Cert.KernelIdeal.Facts]
open Cert.KernelIdeal.Facts₀ Cert.KernelIdeal.Facts

/-- The row coordinates of the strict lower triangle (the program's first literal table; its wrap-around of negative
    entries selects nothing, the mask being all false). -/
def trilRow : (⟨S351, .i32⟩ : BufTy).Contents (Elt F) :=
  select (constantI S351 1 0#1) (addi (fun i => lit0 (S351.rowMajor i)) (broadcastInDim S351 ![] bcast_S_S351 (constantI S_ 32 27#32)))
    (fun i => lit0 (S351.rowMajor i))

/-- The column coordinates of the strict lower triangle (the second literal table). -/
def trilCol : (⟨S351, .i32⟩ : BufTy).Contents (Elt F) :=
  select (constantI S351 1 0#1) (addi (fun i => lit1 (S351.rowMajor i)) (broadcastInDim S351 ![] bcast_S_S351 (constantI S_ 32 27#32)))
    (fun i => lit1 (S351.rowMajor i))

/-- The (row, column) pairs side by side. -/
def trilIdx : (⟨S351x2, .i32⟩ : BufTy).Contents (Elt F) :=
  concatenate S351x2 1 [⟨S351x1, broadcastInDim S351x1 ![0] bcast_S351_S351x1_0 (trilRow (F := F))⟩,
    ⟨S351x1, broadcastInDim S351x1 ![0] bcast_S351_S351x1_0 (trilCol (F := F))⟩] concatenates_S351x1_S351x1_S351x2_d1

/-- The network's input from the embeddings `a` and the examples' 27 × 27 matrices `I`. -/
def feat (a : (⟨S32768x27x128, .f32⟩ : BufTy).Contents (Elt F)) (I : (⟨S32768x27x27, .f32⟩ : BufTy).Contents (Elt F)) :
    (⟨S32768x480, .f32⟩ : BufTy).Contents (Elt F) :=
  concatenate S32768x480 1 [⟨S32768x128, shapeCast S32768x128 (extractStridedSlice S32768x1x128 ![0, 0, 0] a slices_S32768x27x128_S32768x1x128_0_0_0) shapeCasts_S32768x1x128_S32768x128⟩,
    ⟨S32768x351, Host.gather gather_S32768x27x27_S351x2_S32768x351_0_12_n_n_12_1_3276811 I (trilIdx (F := F))⟩,
    ⟨S32768x1, broadcastInDim S32768x1 ![] bcast_S_S32768x1 (constant S_ .f32 0x00000000#32)⟩]
    concatenates_S32768x128_S32768x351_S32768x1_S32768x480_d1

end Terms

section Out
variable [hF : Cert.KernelIdeal.Facts]
open Cert.KernelIdeal.Facts₀ Cert.KernelIdeal.Facts

/-- What the program returns, as one function of its eleven argument arrays, over the extended reals: the network on
    the features of `a0` and of its examples' matrices of pairwise inner products, with each weight matrix transposed
    and each bias vector as a one-row matrix. -/
def kernelOut (a0 : (⟨S32768x27x128, .f32⟩ : BufTy).Contents (Elt Ideal)) (a1 : (⟨S1024x480, .f32⟩ : BufTy).Contents (Elt Ideal))
    (a2 : (⟨S1024, .f32⟩ : BufTy).Contents (Elt Ideal)) (a3 : (⟨S1024x1024, .f32⟩ : BufTy).Contents (Elt Ideal))
    (a4 : (⟨S1024, .f32⟩ : BufTy).Contents (Elt Ideal)) (a5 : (⟨S512x1024, .f32⟩ : BufTy).Contents (Elt Ideal))
    (a6 : (⟨S512, .f32⟩ : BufTy).Contents (Elt Ideal)) (a7 : (⟨S256x512, .f32⟩ : BufTy).Contents (Elt Ideal))
    (a8 : (⟨S256, .f32⟩ : BufTy).Contents (Elt Ideal)) (a9 : (⟨S1x256, .f32⟩ : BufTy).Contents (Elt Ideal))
    (a10 : (⟨S1, .f32⟩ : BufTy).Contents (Elt Ideal)) : Spec.A2 32768 1 :=
  Spec.mlp (feat (F := Ideal) a0 (Spec.gram a0))
    (transpose S480x1024 [1, 0] a1 transposes_S1024x480_S480x1024_1_0) (shapeCast S1x1024 a2 shapeCasts_S1024_S1x1024)
    (transpose S1024x1024 [1, 0] a3 transposes_S1024x1024_S1024x1024_1_0) (shapeCast S1x1024 a4 shapeCasts_S1024_S1x1024)
    (transpose S1024x512 [1, 0] a5 transposes_S512x1024_S1024x512_1_0) (shapeCast S1x512 a6 shapeCasts_S512_S1x512)
    (transpose S512x256 [1, 0] a7 transposes_S256x512_S512x256_1_0) (shapeCast S1x256 a8 shapeCasts_S256_S1x256)
    (transpose S256x1 [1, 0] a9 transposes_S1x256_S256x1_1_0) (shapeCast S1x1 a10 shapeCasts_S1_S1x1)

end Out

end Cert.KernelIdeal.Hand

end
-- ==== Proof.ValHost.lean ====
/-
  What the host stretches leave in the buffers the regions read.
  Before region 0: its operand is the embeddings array rounded to the narrower float format.
  Before region 1: the network's input is `feat` of the embeddings and of region 0's result; each weight operand is the
  weight matrix transposed and rounded; each bias operand is the bias vector as a one-row matrix.
  An argument array is written by no host operation and is no array of region 0, so it is still the launch contents.
-/
import proofs.«140031_j6116033429805_1_alg».proof.Proof.FrameRun
import proofs.«140031_j6116033429805_1_alg».proof.Proof.KTerm
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Before region 1 a buffer that is no array of region 0 and that the first host stretch does not write is as launched. -/
theorem W2_kept (c : Dev nD) (r : Ref sig .tc) (h1 : ∀ w, Pipeline.arrRef spec0 w ≠ r) (h0 : r ∉ hostOps0_W) :
    W2 m ρ c (Proc.devRef .tc r) = m ((c : Thread nD τ).loc r) :=
  (W2_of_ne m ρ c r h1).trans <| (StableHlo.after_of_writes_sub hostOps0 _ hostOps0_writes h0).trans rfl

/-- Region 0's operand: the embeddings, rounded. -/
theorem U1_v0 (c : Dev nD) : U1 m ρ c main_v0 = truncf .bf16 (m ((c : Thread nD τ).loc main_arg0)) bitsLt_bf16_f32 := by
  show StableHlo.after hostOps0 (W0 m ρ c) (Proc.devRef .tc main_v0) = _
  after_results <;> rfl

/-- The network's input, from the embeddings and region 0's result. -/
theorem U3_v15 (c : Dev nD) : U3 m ρ c main_v15 = feat (W2 m ρ c (Proc.devRef .tc main_arg0)) (W2 m ρ c (Proc.devRef .tc main_v1)) := by
  show StableHlo.after hostOps1 (W2 m ρ c) (Proc.devRef .tc main_v15) = _
  after_results <;> rfl

theorem U3_v17 (c : Dev nD) : U3 m ρ c main_v17
    = truncf .bf16 (transpose S480x1024 [1, 0] (W2 m ρ c (Proc.devRef .tc main_arg1)) transposes_S1024x480_S480x1024_1_0) bitsLt_bf16_f32 := by
  show StableHlo.after hostOps1 (W2 m ρ c) (Proc.devRef .tc main_v17) = _
  after_results <;> rfl
theorem U3_v19 (c : Dev nD) : U3 m ρ c main_v19
    = truncf .bf16 (transpose S1024x1024 [1, 0] (W2 m ρ c (Proc.devRef .tc main_arg3)) transposes_S1024x1024_S1024x1024_1_0) bitsLt_bf16_f32 := by
  show StableHlo.after hostOps1 (W2 m ρ c) (Proc.devRef .tc main_v19) = _
  after_results <;> rfl
theorem U3_v21 (c : Dev nD) : U3 m ρ c main_v21
    = truncf .bf16 (transpose S1024x512 [1, 0] (W2 m ρ c (Proc.devRef .tc main_arg5)) transposes_S512x1024_S1024x512_1_0) bitsLt_bf16_f32 := by
  show StableHlo.after hostOps1 (W2 m ρ c) (Proc.devRef .tc main_v21) = _
  after_results <;> rfl
theorem U3_v23 (c : Dev nD) : U3 m ρ c main_v23
    = truncf .bf16 (transpose S512x256 [1, 0] (W2 m ρ c (Proc.devRef .tc main_arg7)) transposes_S256x512_S512x256_1_0) bitsLt_bf16_f32 := by
  show StableHlo.after hostOps1 (W2 m ρ c) (Proc.devRef .tc main_v23) = _
  after_results <;> rfl
theorem U3_v25 (c : Dev nD) : U3 m ρ c main_v25
    = truncf .bf16 (transpose S256x1 [1, 0] (W2 m ρ c (Proc.devRef .tc main_arg9)) transposes_S1x256_S256x1_1_0) bitsLt_bf16_f32 := by
  show StableHlo.after hostOps1 (W2 m ρ c) (Proc.devRef .tc main_v25) = _
  after_results <;> rfl

theorem U3_v26 (c : Dev nD) : U3 m ρ c main_v26 = shapeCast S1x1024 (W2 m ρ c (Proc.devRef .tc main_arg2)) shapeCasts_S1024_S1x1024 := by
  show StableHlo.after hostOps1 (W2 m ρ c) (Proc.devRef .tc main_v26) = _
  after_results <;> rfl
theorem U3_v27 (c : Dev nD) : U3 m ρ c main_v27 = shapeCast S1x1024 (W2 m ρ c (Proc.devRef .tc main_arg4)) shapeCasts_S1024_S1x1024 := by
  show StableHlo.after hostOps1 (W2 m ρ c) (Proc.devRef .tc main_v27) = _
  after_results <;> rfl
theorem U3_v28 (c : Dev nD) : U3 m ρ c main_v28 = shapeCast S1x512 (W2 m ρ c (Proc.devRef .tc main_arg6)) shapeCasts_S512_S1x512 := by
  show StableHlo.after hostOps1 (W2 m ρ c) (Proc.devRef .tc main_v28) = _
  after_results <;> rfl
theorem U3_v29 (c : Dev nD) : U3 m ρ c main_v29 = shapeCast S1x256 (W2 m ρ c (Proc.devRef .tc main_arg8)) shapeCasts_S256_S1x256 := by
  show StableHlo.after hostOps1 (W2 m ρ c) (Proc.devRef .tc main_v29) = _
  after_results <;> rfl
theorem U3_v30 (c : Dev nD) : U3 m ρ c main_v30 = shapeCast S1x1 (W2 m ρ c (Proc.devRef .tc main_arg10)) shapeCasts_S1_S1x1 := by
  show StableHlo.after hostOps1 (W2 m ρ c) (Proc.devRef .tc main_v30) = _
  after_results <;> rfl

end Cert.KernelIdeal.Hand

end
-- ==== Proof.LibBatchDot.lean ====
/-
  A batched contraction read at an index. For a left operand of shape `[B, N, K]` and a right operand of shape
  `[B, M, K]`, with batch axis 0 of both, the second axis of each kept, and the last axis of both contracted, the
  contraction sum at the result index `(b, n, m)` is the sum over `k` of the left operand's entry `(b, n, k)` times
  the right operand's entry `(b, m, k)`: the inner product of row `n` of the left member `b` with row `m` of the
  right member `b`.
-/
import Idealize.ShloMosaic.Lib.ValueIdx
import Idealize.ShloMosaic.PureOps.Ideal.Laws

namespace Cert.LibBatchDot

open Idealize.ShloMosaic Idealize.ShloMosaic.ValueIdx

/-- The contraction sum of a batched product of rows, at `(b, n, m)`: the sum over the contracted coordinate of the
    left operand at `(b, n, k)` times the right operand at `(b, m, k)`. -/
theorem batchDot_sum {B N M K : ℕ} (D : DotDims ⟨3, ![B, N, K]⟩ ⟨3, ![B, M, K]⟩ ⟨3, ![B, N, M]⟩)
    (hlc : D.lhsContracting = [2]) (hrc : D.rhsContracting = [2]) (hln : D.lhsNonContracting = [1]) (hrn : D.rhsNonContracting = [1])
    (hlb : D.lhsBatch = [0]) (hrb : D.rhsBatch = [0]) (l : (⟨3, ![B, N, K]⟩ : Shape).Idx → EReal) (r : (⟨3, ![B, M, K]⟩ : Shape).Idx → EReal)
    (b : Fin B) (n : Fin N) (m : Fin M) :
    ∑ k : D.contr.Idx, l (D.lhsIdx (ix3 b n m) k) * r (D.rhsIdx (ix3 b n m) k) = ∑ k : Fin K, l (ix3 b n k) * r (ix3 b m k) := by
  obtain ⟨lc, rc, ln, rn, lb, rb, w⟩ := D
  simp only at hlc hrc hln hrn hlb hrb
  subst hlc hrc hln hrn hlb hrb
  rw [← Equiv.sum_comp (contrEquiv1 (⟨[2], [2], [1], [1], [0], [0], w⟩ : DotDims _ _ _) K rfl rfl).symm]
  refine Finset.sum_congr rfl fun k _ => ?_
  have hk := contrEquiv1_symm_val
    (⟨[2], [2], [1], [1], [0], [0], w⟩ : DotDims ⟨3, ![B, N, K]⟩ ⟨3, ![B, M, K]⟩ ⟨3, ![B, N, M]⟩) K rfl rfl k
  have el : (⟨[2], [2], [1], [1], [0], [0], w⟩ : DotDims ⟨3, ![B, N, K]⟩ ⟨3, ![B, M, K]⟩ ⟨3, ![B, N, M]⟩).lhsIdx (ix3 b n m)
      ((contrEquiv1 _ K rfl rfl).symm k) = ix3 b n k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hk
  have er : (⟨[2], [2], [1], [1], [0], [0], w⟩ : DotDims ⟨3, ![B, N, K]⟩ ⟨3, ![B, M, K]⟩ ⟨3, ![B, N, M]⟩).rhsIdx (ix3 b n m)
      ((contrEquiv1 _ K rfl rfl).symm k) = ix3 b m k := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hk
  rw [el, er]

end Cert.LibBatchDot
-- ==== Proof.Val0.lean ====
/-
  Region 0's result array after the run, at the ideal values: the Gram array of the region's operand array. Entry
  `(b, n, m)` of the [32768, 27, 27] result is the sum over `k` of the operand's entries `(b, n, k)` and `(b, m, k)`:
  the inner product of rows `n` and `m` of example `b`.
  * The body's one stored value, read at an index of a [1024, 27, 27] block, is that sum over the loaded
    [1024, 27, 128] block (a batched contraction into zero, batch axis 0, last axis of both operands contracted).
  * Point `t` of the 32 loads examples `1024·t … 1024·t + 1023` of the operand and stores the same examples of the
    result: both windows' block index is `(t, 0, 0)`, so an element of a block sits `1024·t` examples further down
    its array, the two inner coordinates unchanged.
  * So what point `t` writes back is block `t` of the Gram array, and the 32 blocks tile the result: example `r`
    is in the block of point `r / 1024`.
-/
import proofs.«140031_j6116033429805_1_alg».proof.Proof.FrameBody0
import proofs.«140031_j6116033429805_1_alg».proof.Proof.Spec
import proofs.«140031_j6116033429805_1_alg».proof.Proof.LibBatchDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The all-zero offsets of a rank-3 rectangle, however they are spelt. -/
theorem zeros3 : (![0, 0, 0] : Fin 3 → Nat) = fun _ => 0 := funext fun a => by fin_cases a <;> rfl

/-- The batched product of a block with itself into zero, at an index: entry `(b, n, m)` is the inner product of rows
    `n` and `m` of member `b`. -/
theorem pay1_apply (x : Vec Ideal S1024x27x128 .bf16) (j : S1024x27x27.Idx) :
    (k0_pay1 (F := Ideal) x : S1024x27x27.Idx → EReal) j
      = ∑ k : Fin 128, (x : S1024x27x128.Idx → EReal) (ix3 (j 0) (j 1) k) * (x : S1024x27x128.Idx → EReal) (ix3 (j 0) (j 2) k) := by
  obtain ⟨b, n, m, rfl⟩ : ∃ (b : Fin 1024) (n m : Fin 27), j = ix3 b n m := ⟨j 0, j 1, j 2, eq_ix3 j⟩
  unfold k0_pay1
  simp only [shapeCast_self]
  refine (Ideal.matmul_constant_zero_apply (φ₁ := .bf16) (φ₂ := .bf16) dot_S1024x27x128_S1024x27x128_S1024x27x27_2_2_1_1_0_0 none x x (ix3 b n m)).trans ?_
  exact Cert.LibBatchDot.batchDot_sum dot_S1024x27x128_S1024x27x128_S1024x27x27_2_2_1_1_0_0 rfl rfl rfl rfl rfl rfl x x b n m

/-- Both windows' block index at point `t` is `(t, 0, 0)`. -/
theorem blockIdx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

variable (V : (c : Dev nD) → (b : Ref sig .tc) → Buf (Elt Ideal) ((c : Thread nD τ).loc b))

/-- The operand's block at point `t` is rows `1024·t … 1024·t + 1023` of the operand array. -/
theorem iblk0_apply (c : Dev nD) (t : Fin cfg0.N) (y : S1024x27x128.Idx) (i : S32768x27x128.Idx)
    (h0 : (i 0).val = 1024 * t.val + (y 0).val) (h1 : (i 1).val = (y 1).val) (h2 : (i 2).val = (y 2).val) :
    (iblk0 (F := Ideal) V c 0 t : S1024x27x128.Idx → EReal) y = (V c main_v0 : S32768x27x128.Idx → EReal) i := by
  obtain ⟨e0, e1, e2, -, -, -⟩ := blockIdx0 t
  unfold iblk0
  rw [View.read_apply]
  show (V c main_v0 : S32768x27x128.Idx → EReal) _ = _
  congr 1
  funext a
  apply Fin.ext
  match a with
  | ⟨0, _⟩ => show win0_0.index t (0 : Fin 3) * 1024 + 1 * (y 0).val = (i 0).val; omega
  | ⟨1, _⟩ => show win0_0.index t (1 : Fin 3) * 27 + 1 * (y 1).val = (i 1).val; omega
  | ⟨2, _⟩ => show win0_0.index t (2 : Fin 3) * 128 + 1 * (y 2).val = (i 2).val; omega

/-- If a block of 1024 members is the members from `off` on of an array, the product of the block with itself, at an
    index of the block, is the Gram array of the array at the index `off` members further down. -/
theorem gram_block (x : S32768x27x128.Idx → EReal) (blk : Vec Ideal S1024x27x128 .bf16) (off : ℕ)
    (hblk : ∀ (y : S1024x27x128.Idx) (i : S32768x27x128.Idx), (i 0).val = off + (y 0).val → (i 1).val = (y 1).val →
      (i 2).val = (y 2).val → (blk : S1024x27x128.Idx → EReal) y = x i)
    (y : S1024x27x27.Idx) (i : S32768x27x27.Idx)
    (h0 : (i 0).val = off + (y 0).val) (h1 : (i 1).val = (y 1).val) (h2 : (i 2).val = (y 2).val) :
    (k0_pay1 (F := Ideal) blk : S1024x27x27.Idx → EReal) y = Spec.gram x i := by
  refine (pay1_apply blk y).trans ?_
  show _ = ∑ k : Fin 128, x (ix3 (i 0) (i 1) k) * x (ix3 (i 0) (i 2) k)
  refine Finset.sum_congr rfl fun k _ => ?_
  exact congrArg₂ (· * ·) (hblk (ix3 (y 0) (y 1) k) (ix3 (i 0) (i 1) k) h0 h1 rfl)
    (hblk (ix3 (y 0) (y 2) k) (ix3 (i 0) (i 2) k) h0 h2 rfl)

/-- What point `t` writes back is block `t` of the Gram array of the operand array. -/
theorem flushed0_eq (c : Dev nD) (t : Fin cfg0.N) :
    (dat0 (F := Ideal) V c).flushed 1 t
      = ((cfg0.win 1).blk t).view.read (Elt Ideal) (Spec.gram (V c main_v0 : S32768x27x128.Idx → EReal)) := by
  show (cfg0.win 1).cut (grid0.coords t) ((dat0 (F := Ideal) V c).after 1 t) = _
  rw [after0_1]
  unfold out0_1
  rw [View.canon_unit_zero zeros3]
  simp only [View.ld_unit_zero (S := S1024x27x128) zeros3]
  obtain ⟨-, -, -, e0, e1, e2⟩ := blockIdx0 t
  funext j
  refine gram_block (V c main_v0) (iblk0 (F := Ideal) V c 0 t) (1024 * t.val) (iblk0_apply V c t)
    ((cfg0.win 1).xinj (grid0.coords t) j) (((cfg0.win 1).blk t).view.emb j) ?_ ?_ ?_
  · show win0_1.index t (0 : Fin 3) * 1024 + 1 * (j 0).val = 1024 * t.val + (j 0).val; omega
  · show win0_1.index t (1 : Fin 3) * 27 + 1 * (j 1).val = (j 1).val; omega
  · show win0_1.index t (2 : Fin 3) * 27 + 1 * (j 2).val = (j 2).val; omega

/-- An index of the result array is in point `t`'s block iff each coordinate is in the block's range on its axis. -/
theorem mem_blk0 (t : Fin cfg0.N) (i : S32768x27x27.Idx) :
    i ∈ ((cfg0.win 1).blk t).view.set ↔ ∀ a : Fin 3, win0_1.index t a * S1024x27x27.size a ≤ (i a).val
      ∧ (i a).val < win0_1.index t a * S1024x27x27.size a + S1024x27x27.size a := by
  show i ∈ ((View.whole main_v1).slice (win0_1.rect t)).set ↔ _
  rw [View.set_slice_whole, Rect.mem_set_unit]
  exact Iff.rfl

/-- The blocks tile the result array: member `r` is in the block of point `r / 1024`. -/
theorem cover0 (i : S32768x27x27.Idx) :
    ∃ t : Fin cfg0.N, (cfg0.win 1).flush t = true ∧ i ∈ ((cfg0.win 1).blk t).view.set := by
  have hi0 : (i 0).val < 32768 := (i 0).isLt
  have hi1 : (i 1).val < 27 := (i 1).isLt
  have hi2 : (i 2).val < 27 := (i 2).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, e0, e1, e2⟩ := blockIdx0 t
  refine ⟨t, flush0_1 t, ?_⟩
  rw [mem_blk0]
  intro a
  match a with
  | ⟨0, _⟩ =>
    show win0_1.index t (0 : Fin 3) * 1024 ≤ (i 0).val ∧ (i 0).val < win0_1.index t (0 : Fin 3) * 1024 + 1024
    omega
  | ⟨1, _⟩ =>
    show win0_1.index t (1 : Fin 3) * 27 ≤ (i 1).val ∧ (i 1).val < win0_1.index t (1 : Fin 3) * 27 + 27
    omega
  | ⟨2, _⟩ =>
    show win0_1.index t (2 : Fin 3) * 27 ≤ (i 2).val ∧ (i 2).val < win0_1.index t (2 : Fin 3) * 27 + 27
    omega

/-- The result array after the run is the Gram array of the operand array: every example's matrix of pairwise inner
    products of its rows. -/
theorem final0 (V : (c : Dev nD) → (b : Ref sig .tc) → Buf (Elt Ideal) ((c : Thread nD τ).loc b)) (c : Dev nD) :
    ((dat0 (F := Ideal) V c).arrAt 1 cfg0.N : S32768x27x27.Idx → EReal) = Spec.gram (V c main_v0 : S32768x27x128.Idx → EReal) :=
  (dat0 (F := Ideal) V c).arrAt_eq_of_cover 1 (Spec.gram (V c main_v0 : S32768x27x128.Idx → EReal))
    (fun t _ => flushed0_eq V c t) cover0

end Cert.KernelIdeal.Hand

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.Val1.lean ====
/-
  Region 1 of the kernel's program, read as mathematics over the extended reals: after the run, the region's
  [32768, 1] result array is the five-layer network `Spec.mlp` of the region's eleven operand arrays.

  * One layer. A plain product accumulated into the zero constant, plus the [1, n] bias row broadcast over the rows,
    is `Spec.dense` (the product read at (p, q) as the sum over the contracted coordinate; the broadcast read at
    (p, q) as the row's entry q). The maximum against the broadcast zero word, then the change of format, which is the
    identity on the extended reals, is `Spec.relu`.
  * The body. Its two payloads composed are four layers with `relu` and the last layer, so what the body leaves in the
    result window's staging buffer is `Spec.mlp` of the eleven loaded blocks (every load and the one store go through
    the whole buffer).
  * The blocks. At point `t` the input window's block is rows [1024·t, 1024·t + 1024) of its array, and so is the
    result window's; the ten weight and bias windows are their whole arrays at every point. A block of rows of the
    network's result is the network on that block of rows (`Spec.rows_mlp`), so point `t` writes back block `t` of
    the network of the whole arrays.
  * The cover. Row `r` lies in the block of point `r / 1024`, and every point writes its block back; so the array
    ends holding the network everywhere.
  The statement is over any proof data of the region whose arrays are the entry contents and whose result window
  holds the body's result after each point.
-/
import proofs.«140031_j6116033429805_1_alg».proof.Proof.FrameDefs1
import proofs.«140031_j6116033429805_1_alg».proof.Proof.Spec
import proofs.«140031_j6116033429805_1_alg».proof.Proof.LibRowOps
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

namespace Region1Value

/-! ## One layer -/

section Layers
variable {M K N : ℕ}

/-- A plain product accumulated into zero, plus the bias row broadcast over the rows, is the affine layer. -/
theorem affine_eq {φ₁ φ₂ : FTy} (D : DotDims ⟨2, ![M, K]⟩ ⟨2, ![K, N]⟩ ⟨2, ![M, N]⟩) (hD : D = DotDims.plain M K N)
    (hb : (⟨2, ![1, N]⟩ : Shape).Broadcasts ⟨2, ![M, N]⟩)
    (l : FVec Ideal ⟨2, ![M, K]⟩ φ₁) (r : FVec Ideal ⟨2, ![K, N]⟩ φ₂) (b : FVec Ideal ⟨2, ![1, N]⟩ .f32) :
    addf (matmul D none l r (constant (F := Ideal) ⟨2, ![M, N]⟩ .f32 0x00000000#32)) (broadcastTo ⟨2, ![M, N]⟩ b hb)
      = Spec.dense l r b := by
  subst hD
  funext j
  obtain ⟨p, q, rfl⟩ : ∃ (p : Fin M) (q : Fin N), j = ix2 p q := ⟨j 0, j 1, eq_ix2 j⟩
  rw [addf_apply, Spec.dense_apply]
  unfold Spec.denseAt
  rw [broadcastTo_1b_ab_apply b hb p q]
  exact congrArg (· + b (ix2 (0 : Fin 1) q)) (Cert.LibRowOps.matmul_plain_zero_apply M K N l r p q)

/-- The maximum against the zero word on every entry, then the change of format (the identity on the extended
    reals), is `relu`. -/
theorem relu_eq (X : FVec Ideal ⟨2, ![M, N]⟩ .f32) (h : FTy.bits .bf16 < FTy.bits .f32) :
    (truncf .bf16 (maximumf X (broadcast ⟨2, ![M, N]⟩ (Scalar.ofBits (F := Ideal) .f32 0x00000000#32))) h : FVec Ideal ⟨2, ![M, N]⟩ .bf16)
      = Spec.relu X := rfl

end Layers

/-! ## The two payloads -/

/-- The body's arithmetic, the second payload over the first, is the five-layer network of the eleven loaded blocks:
    each printed contraction record has the fields of the plain `M × K` by `K × N` product. -/
theorem pay_eq (x0 : Vec Ideal S1024x480 .f32) (x1 : Vec Ideal S480x1024 .bf16) (x2 : Vec Ideal S1x1024 .f32) (x3 : Vec Ideal S1024x1024 .bf16)
    (x4 : Vec Ideal S1x1024 .f32) (x5 : Vec Ideal S1024x512 .bf16) (x6 : Vec Ideal S1x512 .f32) (x7 : Vec Ideal S512x256 .bf16)
    (x8 : Vec Ideal S1x256 .f32) (x9 : Vec Ideal S256x1 .bf16) (x10 : Vec Ideal S1x1 .f32) :
    k1_pay1 (F := Ideal) (k1_pay2 (F := Ideal) x0 x1 x2 x3 x4 x5 x6 x7) x8 x9 x10 = Spec.mlp x0 x1 x2 x3 x4 x5 x6 x7 x8 x9 x10 := by
  unfold k1_pay1 k1_pay2
  simp only [shapeCast_self]
  rw [affine_eq (M := 1024) (K := 480) (N := 1024) dot_S1024x480_S480x1024_S1024x1024_1_0_0_1_n_n rfl broadcasts_S1x1024_S1024x1024
      (truncf .bf16 x0 bitsLt_bf16_f32) x1 x2,
    relu_eq (M := 1024) (N := 1024) _ bitsLt_bf16_f32,
    affine_eq (M := 1024) (K := 1024) (N := 1024) dot_S1024x1024_S1024x1024_S1024x1024_1_0_0_1_n_n rfl broadcasts_S1x1024_S1024x1024 _ x3 x4,
    relu_eq (M := 1024) (N := 1024) _ bitsLt_bf16_f32,
    affine_eq (M := 1024) (K := 1024) (N := 512) dot_S1024x1024_S1024x512_S1024x512_1_0_0_1_n_n rfl broadcasts_S1x512_S1024x512 _ x5 x6,
    relu_eq (M := 1024) (N := 512) _ bitsLt_bf16_f32,
    affine_eq (M := 1024) (K := 512) (N := 256) dot_S1024x512_S512x256_S1024x256_1_0_0_1_n_n rfl broadcasts_S1x256_S1024x256 _ x7 x8,
    relu_eq (M := 1024) (N := 256) _ bitsLt_bf16_f32,
    affine_eq (M := 1024) (K := 256) (N := 1) dot_S1024x256_S256x1_S1024x1_1_0_0_1_n_n rfl broadcasts_S1x1_S1024x1 _ x9 x10]
  rfl

/-! ## The body's result over the loaded blocks -/

theorem hz : (![0, 0] : Fin 2 → Nat) = fun _ => 0 :=
  funext fun a => by match a with | ⟨0, _⟩ => rfl | ⟨1, _⟩ => rfl

/-- What the body leaves in the result window's staging buffer is the network of the eleven blocks it loaded: every
    load and the one store go through whole-buffer rectangles. -/
theorem out1_11_eq (x0 : Vec Ideal S1024x480 .f32) (x1 : Vec Ideal S480x1024 .bf16) (x2 : Vec Ideal S1x1024 .f32) (x3 : Vec Ideal S1024x1024 .bf16)
    (x4 : Vec Ideal S1x1024 .f32) (x5 : Vec Ideal S1024x512 .bf16) (x6 : Vec Ideal S1x512 .f32) (x7 : Vec Ideal S512x256 .bf16)
    (x8 : Vec Ideal S1x256 .f32) (x9 : Vec Ideal S256x1 .bf16) (x10 : Vec Ideal S1x1 .f32) :
    out1_11 (F := Ideal) x0 x1 x2 x3 x4 x5 x6 x7 x8 x9 x10 = Spec.mlp x0 x1 x2 x3 x4 x5 x6 x7 x8 x9 x10 := by
  unfold out1_11
  rw [View.canon_unit_zero hz]
  simp only [View.ld_unit_zero (S := S1024x480) hz, View.ld_unit_zero (S := S480x1024) hz, View.ld_unit_zero (S := S1x1024) hz,
    View.ld_unit_zero (S := S1024x1024) hz, View.ld_unit_zero (S := S1024x512) hz, View.ld_unit_zero (S := S1x512) hz,
    View.ld_unit_zero (S := S512x256) hz, View.ld_unit_zero (S := S1x256) hz, View.ld_unit_zero (S := S256x1) hz,
    View.ld_unit_zero (S := S1x1) hz]
  exact pay_eq x0 x1 x2 x3 x4 x5 x6 x7 x8 x9 x10

/-! ## The windows' blocks -/

/-- The printed index maps, decided over the grid: the input's and the result's row blocks are block `t` at point `t`. -/
theorem idx_rows : ∀ t : Fin cfg1.N, win1_0.index t (0 : Fin 2) = t.val ∧ win1_0.index t (1 : Fin 2) = 0
    ∧ win1_11.index t (0 : Fin 2) = t.val ∧ win1_11.index t (1 : Fin 2) = 0 :=
  (by decide +kernel : ∀ t : Fin grid1.N, _)

/-- Every weight and bias window's block index is zero on both axes at every point. -/
theorem idx_whole : ∀ t : Fin cfg1.N, (∀ a : Fin 2, win1_1.index t a = 0) ∧ (∀ a : Fin 2, win1_2.index t a = 0)
    ∧ (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) ∧ (∀ a : Fin 2, win1_8.index t a = 0)
    ∧ (∀ a : Fin 2, win1_9.index t a = 0) ∧ (∀ a : Fin 2, win1_10.index t a = 0) :=
  (by decide +kernel : ∀ t : Fin grid1.N, _)

/-- The block of rows of point `t` lies inside the 32768 rows. -/
theorem off_le (t : Fin cfg1.N) : 1024 * t.val + 1024 ≤ 32768 := by
  have := t.isLt; have hN : cfg1.N = 32 := N_1; omega

/-- The input window's block at point `t`, read off any `[32768, 480]` array, is its rows `[1024·t, 1024·t + 1024)`:
    a block's element sits at block index × block size + its own coordinate. -/
theorem read_blk0 (t : Fin cfg1.N) (X : S32768x480.Idx → EReal) :
    (((cfg1.win 0).blk t).view.read (Elt Ideal) X : S1024x480.Idx → EReal) = Spec.rows 1024 (1024 * t.val) (off_le t) X := by
  obtain ⟨e0, e1, -, -⟩ := idx_rows t
  funext j
  show X (((cfg1.win 0).blk t).view.emb j) = X (ix2 ⟨1024 * t.val + (j 0).val, _⟩ (j 1))
  refine congrArg X (funext fun a => Fin.ext ?_)
  match a with
  | ⟨0, _⟩ => show win1_0.index t (0 : Fin 2) * 1024 + 1 * (j 0).val = 1024 * t.val + (j 0).val; omega
  | ⟨1, _⟩ => show win1_0.index t (1 : Fin 2) * 480 + 1 * (j 1).val = (j 1).val; omega

/-- The result window's block at point `t`, read off any `[32768, 1]` array, is its rows `[1024·t, 1024·t + 1024)`. -/
theorem read_blk11 (t : Fin cfg1.N) (X : S32768x1.Idx → EReal) :
    (((cfg1.win 11).blk t).view.read (Elt Ideal) X : S1024x1.Idx → EReal) = Spec.rows 1024 (1024 * t.val) (off_le t) X := by
  obtain ⟨-, -, e0, e1⟩ := idx_rows t
  funext j
  show X (((cfg1.win 11).blk t).view.emb j) = X (ix2 ⟨1024 * t.val + (j 0).val, _⟩ (j 1))
  refine congrArg X (funext fun a => Fin.ext ?_)
  match a with
  | ⟨0, _⟩ => show win1_11.index t (0 : Fin 2) * 1024 + 1 * (j 0).val = 1024 * t.val + (j 0).val; omega
  | ⟨1, _⟩ => show win1_11.index t (1 : Fin 2) * 1 + 1 * (j 1).val = (j 1).val; omega

/-! A weight or bias window's block, at every point, read off any array of its shape, is the array: its block index is
    zero on both axes and its block is the whole shape, so an element keeps its coordinates. One statement per window. -/

theorem read_whole1 (t : Fin cfg1.N) (X : S480x1024.Idx → EReal) :
    (((cfg1.win 1).blk t).view.read (Elt Ideal) X : S480x1024.Idx → EReal) = X := by
  funext j
  show X (((cfg1.win 1).blk t).view.emb j) = X j
  exact congrArg X (funext fun a => Fin.ext (win1_1.rect_emb_val_of_index_zero t a ((idx_whole t).1 a) j))

theorem read_whole2 (t : Fin cfg1.N) (X : S1x1024.Idx → EReal) :
    (((cfg1.win 2).blk t).view.read (Elt Ideal) X : S1x1024.Idx → EReal) = X := by
  funext j
  show X (((cfg1.win 2).blk t).view.emb j) = X j
  exact congrArg X (funext fun a => Fin.ext (win1_2.rect_emb_val_of_index_zero t a ((idx_whole t).2.1 a) j))

theorem read_whole3 (t : Fin cfg1.N) (X : S1024x1024.Idx → EReal) :
    (((cfg1.win 3).blk t).view.read (Elt Ideal) X : S1024x1024.Idx → EReal) = X := by
  funext j
  show X (((cfg1.win 3).blk t).view.emb j) = X j
  exact congrArg X (funext fun a => Fin.ext (win1_3.rect_emb_val_of_index_zero t a ((idx_whole t).2.2.1 a) j))

theorem read_whole4 (t : Fin cfg1.N) (X : S1x1024.Idx → EReal) :
    (((cfg1.win 4).blk t).view.read (Elt Ideal) X : S1x1024.Idx → EReal) = X := by
  funext j
  show X (((cfg1.win 4).blk t).view.emb j) = X j
  exact congrArg X (funext fun a => Fin.ext (win1_4.rect_emb_val_of_index_zero t a ((idx_whole t).2.2.2.1 a) j))

theorem read_whole5 (t : Fin cfg1.N) (X : S1024x512.Idx → EReal) :
    (((cfg1.win 5).blk t).view.read (Elt Ideal) X : S1024x512.Idx → EReal) = X := by
  funext j
  show X (((cfg1.win 5).blk t).view.emb j) = X j
  exact congrArg X (funext fun a => Fin.ext (win1_5.rect_emb_val_of_index_zero t a ((idx_whole t).2.2.2.2.1 a) j))

theorem read_whole6 (t : Fin cfg1.N) (X : S1x512.Idx → EReal) :
    (((cfg1.win 6).blk t).view.read (Elt Ideal) X : S1x512.Idx → EReal) = X := by
  funext j
  show X (((cfg1.win 6).blk t).view.emb j) = X j
  exact congrArg X (funext fun a => Fin.ext (win1_6.rect_emb_val_of_index_zero t a ((idx_whole t).2.2.2.2.2.1 a) j))

theorem read_whole7 (t : Fin cfg1.N) (X : S512x256.Idx → EReal) :
    (((cfg1.win 7).blk t).view.read (Elt Ideal) X : S512x256.Idx → EReal) = X := by
  funext j
  show X (((cfg1.win 7).blk t).view.emb j) = X j
  exact congrArg X (funext fun a => Fin.ext (win1_7.rect_emb_val_of_index_zero t a ((idx_whole t).2.2.2.2.2.2.1 a) j))

theorem read_whole8 (t : Fin cfg1.N) (X : S1x256.Idx → EReal) :
    (((cfg1.win 8).blk t).view.read (Elt Ideal) X : S1x256.Idx → EReal) = X := by
  funext j
  show X (((cfg1.win 8).blk t).view.emb j) = X j
  exact congrArg X (funext fun a => Fin.ext (win1_8.rect_emb_val_of_index_zero t a ((idx_whole t).2.2.2.2.2.2.2.1 a) j))

theorem read_whole9 (t : Fin cfg1.N) (X : S256x1.Idx → EReal) :
    (((cfg1.win 9).blk t).view.read (Elt Ideal) X : S256x1.Idx → EReal) = X := by
  funext j
  show X (((cfg1.win 9).blk t).view.emb j) = X j
  exact congrArg X (funext fun a => Fin.ext (win1_9.rect_emb_val_of_index_zero t a ((idx_whole t).2.2.2.2.2.2.2.2.1 a) j))

theorem read_whole10 (t : Fin cfg1.N) (X : S1x1.Idx → EReal) :
    (((cfg1.win 10).blk t).view.read (Elt Ideal) X : S1x1.Idx → EReal) = X := by
  funext j
  show X (((cfg1.win 10).blk t).view.emb j) = X j
  exact congrArg X (funext fun a => Fin.ext (win1_10.rect_emb_val_of_index_zero t a ((idx_whole t).2.2.2.2.2.2.2.2.2 a) j))

/-! ## From the blocks to the array -/

/-- Row `r` of the result is in the block of point `r / 1024`, which is written back. -/
theorem cover11 (i : S32768x1.Idx) : ∃ t : Fin cfg1.N, (cfg1.win 11).flush t = true ∧ i ∈ ((cfg1.win 11).blk t).view.set := by
  have hN : cfg1.N = 32 := N_1
  have hi0 : (i 0).val < 32768 := (i 0).isLt
  have hi1 : (i 1).val < 1 := (i 1).isLt
  obtain ⟨t, ht⟩ : ∃ t : Fin cfg1.N, t.val = (i 0).val / 1024 := ⟨⟨(i 0).val / 1024, by omega⟩, rfl⟩
  obtain ⟨-, -, e0, e1⟩ := idx_rows t
  refine ⟨t, flush1_11 t, ?_⟩
  show i ∈ ((View.whole main_v31).slice (win1_11.rect t)).set
  rw [View.set_slice_whole, Rect.mem_set_unit]
  intro a
  match a with
  | ⟨0, _⟩ => show win1_11.index t (0 : Fin 2) * 1024 ≤ (i 0).val ∧ (i 0).val < win1_11.index t (0 : Fin 2) * 1024 + 1024; omega
  | ⟨1, _⟩ => show win1_11.index t (1 : Fin 2) * 1 ≤ (i 1).val ∧ (i 1).val < win1_11.index t (1 : Fin 2) * 1 + 1; omega

end Region1Value

open Region1Value

/-- Region 1's result array after the run is the five-layer network of the region's eleven operand arrays: point `t`
    writes back the network of rows `[1024·t, 1024·t + 1024)` of the input, which is those rows of the network of the
    whole input, and the 32 blocks of rows cover the array. -/
theorem final1_of (V : (c : Dev nD) → (b : Ref sig .tc) → Buf (Elt Ideal) ((c : Thread nD τ).loc b)) (c : Dev nD)
    (dat : Dat τ (Elt Ideal) Unit ℕ (UR sig nD τ) ℕ cfg1 c) (hA : ∀ w, dat.A w = V c (Pipeline.arrRef spec1 w))
    (hafter : ∀ t, dat.after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) :
    (dat.arrAt 11 cfg1.N : S32768x1.Idx → EReal)
      = Spec.mlp (V c main_v15 : S32768x480.Idx → EReal) (V c main_v17 : S480x1024.Idx → EReal) (V c main_v26 : S1x1024.Idx → EReal)
          (V c main_v19 : S1024x1024.Idx → EReal) (V c main_v27 : S1x1024.Idx → EReal) (V c main_v21 : S1024x512.Idx → EReal) (V c main_v28 : S1x512.Idx → EReal)
          (V c main_v23 : S512x256.Idx → EReal) (V c main_v29 : S1x256.Idx → EReal) (V c main_v25 : S256x1.Idx → EReal) (V c main_v30 : S1x1.Idx → EReal) := by
  refine dat.arrAt_eq_of_cover 11 (Spec.mlp (V c main_v15 : S32768x480.Idx → EReal) (V c main_v17 : S480x1024.Idx → EReal) (V c main_v26 : S1x1024.Idx → EReal)
          (V c main_v19 : S1024x1024.Idx → EReal) (V c main_v27 : S1x1024.Idx → EReal) (V c main_v21 : S1024x512.Idx → EReal) (V c main_v28 : S1x512.Idx → EReal)
          (V c main_v23 : S512x256.Idx → EReal) (V c main_v29 : S1x256.Idx → EReal) (V c main_v25 : S256x1.Idx → EReal) (V c main_v30 : S1x1.Idx → EReal))
    (fun t _ => ?_) cover11
  have e0 : (iblk1 V c 0 t : S1024x480.Idx → EReal) = Spec.rows 1024 (1024 * t.val) (off_le t) (V c main_v15 : S32768x480.Idx → EReal) := read_blk0 t _
  have e1 : (iblk1 V c 1 t : S480x1024.Idx → EReal) = (V c main_v17 : S480x1024.Idx → EReal) := read_whole1 t _
  have e2 : (iblk1 V c 2 t : S1x1024.Idx → EReal) = (V c main_v26 : S1x1024.Idx → EReal) := read_whole2 t _
  have e3 : (iblk1 V c 3 t : S1024x1024.Idx → EReal) = (V c main_v19 : S1024x1024.Idx → EReal) := read_whole3 t _
  have e4 : (iblk1 V c 4 t : S1x1024.Idx → EReal) = (V c main_v27 : S1x1024.Idx → EReal) := read_whole4 t _
  have e5 : (iblk1 V c 5 t : S1024x512.Idx → EReal) = (V c main_v21 : S1024x512.Idx → EReal) := read_whole5 t _
  have e6 : (iblk1 V c 6 t : S1x512.Idx → EReal) = (V c main_v28 : S1x512.Idx → EReal) := read_whole6 t _
  have e7 : (iblk1 V c 7 t : S512x256.Idx → EReal) = (V c main_v23 : S512x256.Idx → EReal) := read_whole7 t _
  have e8 : (iblk1 V c 8 t : S1x256.Idx → EReal) = (V c main_v29 : S1x256.Idx → EReal) := read_whole8 t _
  have e9 : (iblk1 V c 9 t : S256x1.Idx → EReal) = (V c main_v25 : S256x1.Idx → EReal) := read_whole9 t _
  have e10 : (iblk1 V c 10 t : S1x1.Idx → EReal) = (V c main_v30 : S1x1.Idx → EReal) := read_whole10 t _
  show (cfg1.win 11).cut (grid1.coords t) (dat.after 11 t) = _
  rw [hafter t]
  refine ((out1_11_eq (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t)).trans ?_).trans (read_blk11 t _).symm
  rw [Spec.rows_mlp, e0, e1, e2, e3, e4, e5, e6, e7, e8, e9, e10]

end Cert.KernelIdeal.Hand

end
-- ==== Proof.KernelValue.lean ====
/-
  The kernel program's result, over the extended reals, as one function of its arguments.
  The final memory holds the result array at what region 1's write-backs leave: the network on region 1's eleven
  operand arrays (`final1_of`). Those are the host's terms of the arguments and of region 0's result; region 0's result is
  the matrices of pairwise inner products of its operand (`final0`), which is the embeddings array itself, rounding
  being the identity on extended reals. Together: `kernelOut` of the launch contents.
-/
import proofs.«140031_j6116033429805_1_alg».proof.Proof.ValHost
import proofs.«140031_j6116033429805_1_alg».proof.Proof.Val0
import proofs.«140031_j6116033429805_1_alg».proof.Proof.Val1

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- Rounding to a narrower float format is the identity on extended reals. -/
theorem truncf_id {s : Shape} {φ ψ : FTy} (a : FVec Ideal s φ) (h : ψ.bits < φ.bits) : (truncf ψ a h : s.Idx → EReal) = a := rfl

/-- Region 0's result after the run: every example's matrix of pairwise inner products of the embeddings. -/
theorem W2_v1 (c : Dev nD) :
    (W2 m ρ c (Proc.devRef .tc main_v1) : S32768x27x27.Idx → EReal) = Spec.gram (m ((c : Thread nD τ).loc main_arg0) : S32768x27x128.Idx → EReal) := by
  refine (W2_arr m ρ c 1).trans ((final0 (U1 m ρ) c).trans ?_)
  rw [U1_v0]
  rfl

/-- The program's result after the run. -/
theorem result_eq (c : Dev nD) :
    (W4 m ρ c (Proc.devRef .tc main_v31) : S32768x1.Idx → EReal)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (W4_arr m ρ c 11).trans ((final1_of (U3 m ρ) c (dat1 (U3 m ρ) c) (A_eq1 (U3 m ρ) c) (after1_11 (U3 m ρ) c)).trans ?_)
  rw [U3_v15, U3_v17, U3_v19, U3_v21, U3_v23, U3_v25, U3_v26, U3_v27, U3_v28, U3_v29, U3_v30, W2_v1,
    W2_kept m ρ c main_arg0 (by decide) (by decide), W2_kept m ρ c main_arg1 (by decide) (by decide),
    W2_kept m ρ c main_arg2 (by decide) (by decide), W2_kept m ρ c main_arg3 (by decide) (by decide),
    W2_kept m ρ c main_arg4 (by decide) (by decide), W2_kept m ρ c main_arg5 (by decide) (by decide),
    W2_kept m ρ c main_arg6 (by decide) (by decide), W2_kept m ρ c main_arg7 (by decide) (by decide),
    W2_kept m ρ c main_arg8 (by decide) (by decide), W2_kept m ρ c main_arg9 (by decide) (by decide),
    W2_kept m ρ c main_arg10 (by decide) (by decide)]
  rfl

/-- Every weakly fair execution ends with the result array at `kernelOut` of the launch contents and the arguments as launched. -/
theorem value_run : θ_run defs (onTc (τ := τ) (main (F := Ideal))) ⟨m, fun _ => 0, ρ⟩ (fun r => ∀ c : Dev nD,
      r.2.mem ((c.tc : Thread nD τ).loc main_v31)
        = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_v31 (by decide)).trans (result_eq m ρ c),
     (h c main_arg0 (by decide)).trans (W4_kept m ρ c main_arg0 (by decide) (by decide) (by decide) (by decide)),
     (h c main_arg1 (by decide)).trans (W4_kept m ρ c main_arg1 (by decide) (by decide) (by decide) (by decide)),
     (h c main_arg2 (by decide)).trans (W4_kept m ρ c main_arg2 (by decide) (by decide) (by decide) (by decide)),
     (h c main_arg3 (by decide)).trans (W4_kept m ρ c main_arg3 (by decide) (by decide) (by decide) (by decide)),
     (h c main_arg4 (by decide)).trans (W4_kept m ρ c main_arg4 (by decide) (by decide) (by decide) (by decide)),
     (h c main_arg5 (by decide)).trans (W4_kept m ρ c main_arg5 (by decide) (by decide) (by decide) (by decide)),
     (h c main_arg6 (by decide)).trans (W4_kept m ρ c main_arg6 (by decide) (by decide) (by decide) (by decide)),
     (h c main_arg7 (by decide)).trans (W4_kept m ρ c main_arg7 (by decide) (by decide) (by decide) (by decide)),
     (h c main_arg8 (by decide)).trans (W4_kept m ρ c main_arg8 (by decide) (by decide) (by decide) (by decide)),
     (h c main_arg9 (by decide)).trans (W4_kept m ρ c main_arg9 (by decide) (by decide) (by decide) (by decide)),
     (h c main_arg10 (by decide)).trans (W4_kept m ρ c main_arg10 (by decide) (by decide) (by decide) (by decide))⟩) (run_at m ρ)

end Cert.KernelIdeal.Hand

end
-- ==== Proof.RefTerm.lean ====
/-
  What the reference program computes, as one function of its eleven argument arrays, in the program's own operations:
  the features (each example's first row, the strictly-lower entries of its matrix of pairwise inner products picked
  at the (row, column) table, one zero), then four times "multiply by the transposed weights, add the bias on every
  row, take the maximum with zero", then the last multiplication and bias.
-/
import proofs.«140031_j6116033429805_1_alg».proof.ReferenceIdeal

noncomputable section

namespace Cert.ReferenceIdeal.Hand

open Cert.ReferenceIdeal
open Idealize.ShloMosaic Idealize.SL.Sem

variable {F : FTy → Type} [FloatOps F] [hF : Cert.ReferenceIdeal.Facts]
open Cert.ReferenceIdeal.Facts₀ Cert.ReferenceIdeal.Facts

/-- The row coordinates of the strict lower triangle (the first literal table). -/
def trilRow : (⟨S351, .i32⟩ : BufTy).Contents (Elt F) :=
  select (constantI S351 1 0#1) (addi (fun i => lit0 (S351.rowMajor i)) (broadcastInDim S351 ![] bcast_S_S351 (constantI S_ 32 27#32)))
    (fun i => lit0 (S351.rowMajor i))

/-- The column coordinates (the second literal table). -/
def trilCol : (⟨S351, .i32⟩ : BufTy).Contents (Elt F) :=
  select (constantI S351 1 0#1) (addi (fun i => lit1 (S351.rowMajor i)) (broadcastInDim S351 ![] bcast_S_S351 (constantI S_ 32 27#32)))
    (fun i => lit1 (S351.rowMajor i))

/-- The (row, column) pairs side by side. -/
def trilIdx : (⟨S351x2, .i32⟩ : BufTy).Contents (Elt F) :=
  concatenate S351x2 1 [⟨S351x1, broadcastInDim S351x1 ![0] bcast_S351_S351x1_0 (trilRow (F := F))⟩,
    ⟨S351x1, broadcastInDim S351x1 ![0] bcast_S351_S351x1_0 (trilCol (F := F))⟩] concatenates_S351x1_S351x1_S351x2_d1

/-- The network's input: first rows, strictly-lower inner products, a zero column. -/
def refFeat (a0 : (⟨S32768x27x128, .f32⟩ : BufTy).Contents (Elt F)) : (⟨S32768x480, .f32⟩ : BufTy).Contents (Elt F) :=
  concatenate S32768x480 1 [⟨S32768x128, shapeCast S32768x128 (extractStridedSlice S32768x1x128 ![0, 0, 0] a0 slices_S32768x27x128_S32768x1x128_0_0_0) shapeCasts_S32768x1x128_S32768x128⟩,
    ⟨S32768x351, Host.gather gather_S32768x27x27_S351x2_S32768x351_0_12_n_n_12_1_3276811
      (Host.dotGeneral dot_S32768x27x128_S32768x27x128_S32768x27x27_2_2_1_1_0_0 none a0 a0) (trilIdx (F := F))⟩,
    ⟨S32768x1, broadcastInDim S32768x1 ![] bcast_S_S32768x1 (constant S_ .f32 0x00000000#32)⟩]
    concatenates_S32768x128_S32768x351_S32768x1_S32768x480_d1

/-- Layer 0 with its maximum: 480 → 1024. -/
def refL0 (X : (⟨S32768x480, .f32⟩ : BufTy).Contents (Elt F)) (a1 : (⟨S1024x480, .f32⟩ : BufTy).Contents (Elt F))
    (a2 : (⟨S1024, .f32⟩ : BufTy).Contents (Elt F)) : (⟨S32768x1024, .f32⟩ : BufTy).Contents (Elt F) :=
  maximumf (addf (Host.dotGeneral dot_S32768x480_S480x1024_S32768x1024_1_0_0_1_n_n none X (transpose S480x1024 [1, 0] a1 transposes_S1024x480_S480x1024_1_0))
      (broadcastInDim S32768x1024 ![0, 1] bcast_S1x1024_S32768x1024_0_1 (broadcastInDim S1x1024 ![1] bcast_S1024_S1x1024_1 a2)))
    (broadcastInDim S32768x1024 ![] bcast_S_S32768x1024 (constant S_ .f32 0x00000000#32))

/-- Layer 1 with its maximum: 1024 → 1024. -/
def refL1 (X : (⟨S32768x1024, .f32⟩ : BufTy).Contents (Elt F)) (a3 : (⟨S1024x1024, .f32⟩ : BufTy).Contents (Elt F))
    (a4 : (⟨S1024, .f32⟩ : BufTy).Contents (Elt F)) : (⟨S32768x1024, .f32⟩ : BufTy).Contents (Elt F) :=
  maximumf (addf (Host.dotGeneral dot_S32768x1024_S1024x1024_S32768x1024_1_0_0_1_n_n none X (transpose S1024x1024 [1, 0] a3 transposes_S1024x1024_S1024x1024_1_0))
      (broadcastInDim S32768x1024 ![0, 1] bcast_S1x1024_S32768x1024_0_1 (broadcastInDim S1x1024 ![1] bcast_S1024_S1x1024_1 a4)))
    (broadcastInDim S32768x1024 ![] bcast_S_S32768x1024 (constant S_ .f32 0x00000000#32))

/-- Layer 2 with its maximum: 1024 → 512. -/
def refL2 (X : (⟨S32768x1024, .f32⟩ : BufTy).Contents (Elt F)) (a5 : (⟨S512x1024, .f32⟩ : BufTy).Contents (Elt F))
    (a6 : (⟨S512, .f32⟩ : BufTy).Contents (Elt F)) : (⟨S32768x512, .f32⟩ : BufTy).Contents (Elt F) :=
  maximumf (addf (Host.dotGeneral dot_S32768x1024_S1024x512_S32768x512_1_0_0_1_n_n none X (transpose S1024x512 [1, 0] a5 transposes_S512x1024_S1024x512_1_0))
      (broadcastInDim S32768x512 ![0, 1] bcast_S1x512_S32768x512_0_1 (broadcastInDim S1x512 ![1] bcast_S512_S1x512_1 a6)))
    (broadcastInDim S32768x512 ![] bcast_S_S32768x512 (constant S_ .f32 0x00000000#32))

/-- Layer 3 with its maximum: 512 → 256. -/
def refL3 (X : (⟨S32768x512, .f32⟩ : BufTy).Contents (Elt F)) (a7 : (⟨S256x512, .f32⟩ : BufTy).Contents (Elt F))
    (a8 : (⟨S256, .f32⟩ : BufTy).Contents (Elt F)) : (⟨S32768x256, .f32⟩ : BufTy).Contents (Elt F) :=
  maximumf (addf (Host.dotGeneral dot_S32768x512_S512x256_S32768x256_1_0_0_1_n_n none X (transpose S512x256 [1, 0] a7 transposes_S256x512_S512x256_1_0))
      (broadcastInDim S32768x256 ![0, 1] bcast_S1x256_S32768x256_0_1 (broadcastInDim S1x256 ![1] bcast_S256_S1x256_1 a8)))
    (broadcastInDim S32768x256 ![] bcast_S_S32768x256 (constant S_ .f32 0x00000000#32))

/-- The last layer, no maximum: 256 → 1. -/
def refL4 (X : (⟨S32768x256, .f32⟩ : BufTy).Contents (Elt F)) (a9 : (⟨S1x256, .f32⟩ : BufTy).Contents (Elt F))
    (a10 : (⟨S1, .f32⟩ : BufTy).Contents (Elt F)) : (⟨S32768x1, .f32⟩ : BufTy).Contents (Elt F) :=
  addf (Host.dotGeneral dot_S32768x256_S256x1_S32768x1_1_0_0_1_n_n none X (transpose S256x1 [1, 0] a9 transposes_S1x256_S256x1_1_0))
    (broadcastInDim S32768x1 ![0, 1] bcast_S1x1_S32768x1_0_1 (broadcastInDim S1x1 ![1] bcast_S1_S1x1_1 a10))

/-- The reference's result from its arguments. -/
def refOut (a0 : (⟨S32768x27x128, .f32⟩ : BufTy).Contents (Elt F)) (a1 : (⟨S1024x480, .f32⟩ : BufTy).Contents (Elt F))
    (a2 : (⟨S1024, .f32⟩ : BufTy).Contents (Elt F)) (a3 : (⟨S1024x1024, .f32⟩ : BufTy).Contents (Elt F))
    (a4 : (⟨S1024, .f32⟩ : BufTy).Contents (Elt F)) (a5 : (⟨S512x1024, .f32⟩ : BufTy).Contents (Elt F))
    (a6 : (⟨S512, .f32⟩ : BufTy).Contents (Elt F)) (a7 : (⟨S256x512, .f32⟩ : BufTy).Contents (Elt F))
    (a8 : (⟨S256, .f32⟩ : BufTy).Contents (Elt F)) (a9 : (⟨S1x256, .f32⟩ : BufTy).Contents (Elt F))
    (a10 : (⟨S1, .f32⟩ : BufTy).Contents (Elt F)) : (⟨S32768x1, .f32⟩ : BufTy).Contents (Elt F) :=
  refL4 (refL3 (refL2 (refL1 (refL0 (refFeat a0) a1 a2) a3 a4) a5 a6) a7 a8) a9 a10

end Cert.ReferenceIdeal.Hand

end
-- ==== Proof.RefRun.lean ====
/-
  The reference program's run: its @main as the list of its fifty-nine host operations (each call of the
  maximum-with-zero function written out at its call site over that call's own buffers), and what the
  result buffer holds once they have run in order — the composed term of the arguments' launch contents —
  with every argument buffer unchanged.
-/
import proofs.«140031_j6116033429805_1_alg».proof.ReferenceIdeal
import proofs.«140031_j6116033429805_1_alg».proof.Proof.Gen.ReferenceIdeal
import proofs.«140031_j6116033429805_1_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [hF : Cert.ReferenceIdeal.Facts]
open Cert.ReferenceIdeal.Facts₀ Cert.ReferenceIdeal.Facts

/-- @main's fifty-nine operations in order: the index tables and the features (twenty-two), then per hidden
    layer the transposed weights, the product, the bias on every row, the sum, and the maximum with a
    broadcast zero (the zero, its broadcast, the maximum: three operations into the call's buffers), then
    the last layer's five. -/
abbrev ops : List (HloOp τ sig (Elt F)) :=
  [ StableHlo.nullary main_c (fun i => lit0 (S351.rowMajor i)),
    StableHlo.nullary main_c_0 (constantI S351 1 0#1),
    StableHlo.nullary main_c_1 (fun i => lit1 (S351.rowMajor i)),
    StableHlo.nullary main_c_2 (constantI S351 1 0#1),
    StableHlo.unary main_arg0 main_v0 ((extractStridedSlice S32768x1x128 ![0, 0, 0] · slices_S32768x27x128_S32768x1x128_0_0_0) : (⟨S32768x27x128, .f32⟩ : BufTy).Contents (Elt F) → (⟨S32768x1x128, .f32⟩ : BufTy).Contents (Elt F)),
    StableHlo.reshape main_v0 main_v1 rfl shapeCasts_S32768x1x128_S32768x128,
    StableHlo.binary main_arg0 main_arg0 main_v2 ((fun l r => Host.dotGeneral dot_S32768x27x128_S32768x27x128_S32768x27x27_2_2_1_1_0_0 none l r) : (⟨S32768x27x128, .f32⟩ : BufTy).Contents (Elt F) → (⟨S32768x27x128, .f32⟩ : BufTy).Contents (Elt F) → (⟨S32768x27x27, .f32⟩ : BufTy).Contents (Elt F)),
    StableHlo.nullary main_c_3 (constantI S_ 32 27#32),
    StableHlo.unary main_c_3 main_v3 (broadcastInDim S351 ![] bcast_S_S351 : (⟨S_, .i32⟩ : BufTy).Contents (Elt F) → (⟨S351, .i32⟩ : BufTy).Contents (Elt F)),
    StableHlo.binary main_c main_v3 main_v4 (addi : (⟨S351, .i32⟩ : BufTy).Contents (Elt F) → (⟨S351, .i32⟩ : BufTy).Contents (Elt F) → (⟨S351, .i32⟩ : BufTy).Contents (Elt F)),
    StableHlo.ternary main_c_0 main_v4 main_c main_v5 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.nullary main_c_4 (constantI S_ 32 27#32),
    StableHlo.unary main_c_4 main_v6 (broadcastInDim S351 ![] bcast_S_S351 : (⟨S_, .i32⟩ : BufTy).Contents (Elt F) → (⟨S351, .i32⟩ : BufTy).Contents (Elt F)),
    StableHlo.binary main_c_1 main_v6 main_v7 (addi : (⟨S351, .i32⟩ : BufTy).Contents (Elt F) → (⟨S351, .i32⟩ : BufTy).Contents (Elt F) → (⟨S351, .i32⟩ : BufTy).Contents (Elt F)),
    StableHlo.ternary main_c_2 main_v7 main_c_1 main_v8 (select : (⟨S351, .i1⟩ : BufTy).Contents (Elt F) → (⟨S351, .i32⟩ : BufTy).Contents (Elt F) → (⟨S351, .i32⟩ : BufTy).Contents (Elt F) → (⟨S351, .i32⟩ : BufTy).Contents (Elt F)),
    StableHlo.unary main_v5 main_v9 (broadcastInDim S351x1 ![0] bcast_S351_S351x1_0 : (⟨S351, .i32⟩ : BufTy).Contents (Elt F) → (⟨S351x1, .i32⟩ : BufTy).Contents (Elt F)),
    StableHlo.unary main_v8 main_v10 (broadcastInDim S351x1 ![0] bcast_S351_S351x1_0 : (⟨S351, .i32⟩ : BufTy).Contents (Elt F) → (⟨S351x1, .i32⟩ : BufTy).Contents (Elt F)),
    StableHlo.binary main_v9 main_v10 main_v11 ((fun a b => concatenate S351x2 1 [⟨S351x1, a⟩, ⟨S351x1, b⟩] concatenates_S351x1_S351x1_S351x2_d1) : (⟨S351x1, .i32⟩ : BufTy).Contents (Elt F) → (⟨S351x1, .i32⟩ : BufTy).Contents (Elt F) → (⟨S351x2, .i32⟩ : BufTy).Contents (Elt F)),
    StableHlo.binary main_v2 main_v11 main_v12 ((fun x i => Host.gather gather_S32768x27x27_S351x2_S32768x351_0_12_n_n_12_1_3276811 x i) : (⟨S32768x27x27, .f32⟩ : BufTy).Contents (Elt F) → (⟨S351x2, .i32⟩ : BufTy).Contents (Elt F) → (⟨S32768x351, .f32⟩ : BufTy).Contents (Elt F)),
    StableHlo.nullary main_cst (constant S_ .f32 0x00000000#32),
    StableHlo.unary main_cst main_v13 (broadcastInDim S32768x1 ![] bcast_S_S32768x1 : (⟨S_, .f32⟩ : BufTy).Contents (Elt F) → (⟨S32768x1, .f32⟩ : BufTy).Contents (Elt F)),
    StableHlo.nary ![main_v1, main_v12, main_v13] main_v14 (fun u => concatenate S32768x480 1 [⟨S32768x128, u 0⟩, ⟨S32768x351, u 1⟩, ⟨S32768x1, u 2⟩] concatenates_S32768x128_S32768x351_S32768x1_S32768x480_d1),
    StableHlo.unary main_arg1 main_v15 ((transpose S480x1024 [1, 0] · transposes_S1024x480_S480x1024_1_0) : (⟨S1024x480, .f32⟩ : BufTy).Contents (Elt F) → (⟨S480x1024, .f32⟩ : BufTy).Contents (Elt F)),
    StableHlo.binary main_v14 main_v15 main_v16 ((fun l r => Host.dotGeneral dot_S32768x480_S480x1024_S32768x1024_1_0_0_1_n_n none l r) : (⟨S32768x480, .f32⟩ : BufTy).Contents (Elt F) → (⟨S480x1024, .f32⟩ : BufTy).Contents (Elt F) → (⟨S32768x1024, .f32⟩ : BufTy).Contents (Elt F)),
    StableHlo.unary main_arg2 main_v17 (broadcastInDim S1x1024 ![1] bcast_S1024_S1x1024_1 : (⟨S1024, .f32⟩ : BufTy).Contents (Elt F) → (⟨S1x1024, .f32⟩ : BufTy).Contents (Elt F)),
    StableHlo.unary main_v17 main_v18 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v16 main_v18 main_v19 (addf : (⟨S32768x1024, .f32⟩ : BufTy).Contents (Elt F) → (⟨S32768x1024, .f32⟩ : BufTy).Contents (Elt F) → (⟨S32768x1024, .f32⟩ : BufTy).Contents (Elt F)),
    StableHlo.TRef.nullary main_call0.cst (constant S_ .f32 0x00000000#32),
    StableHlo.TRef.unary main_call0.cst main_call0.v0 (broadcastInDim S32768x1024 ![] bcast_S_S32768x1024),
    StableHlo.TRef.binary (.of main_v19 : StableHlo.TRef sig ⟨S32768x1024, .f32⟩) main_call0.v0 main_call0.v1 maximumf,
    StableHlo.unary main_arg3 main_v21 ((transpose S1024x1024 [1, 0] · transposes_S1024x1024_S1024x1024_1_0) : (⟨S1024x1024, .f32⟩ : BufTy).Contents (Elt F) → (⟨S1024x1024, .f32⟩ : BufTy).Contents (Elt F)),
    StableHlo.binary main_v20 main_v21 main_v22 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    StableHlo.unary main_arg4 main_v23 (broadcastInDim S1x1024 ![1] bcast_S1024_S1x1024_1 : (⟨S1024, .f32⟩ : BufTy).Contents (Elt F) → (⟨S1x1024, .f32⟩ : BufTy).Contents (Elt F)),
    StableHlo.unary main_v23 main_v24 (broadcastInDim S32768x1024 ![0, 1] bcast_S1x1024_S32768x1024_0_1 : (⟨S1x1024, .f32⟩ : BufTy).Contents (Elt F) → (⟨S32768x1024, .f32⟩ : BufTy).Contents (Elt F)),
    StableHlo.binary main_v22 main_v24 main_v25 (addf : (⟨S32768x1024, .f32⟩ : BufTy).Contents (Elt F) → (⟨S32768x1024, .f32⟩ : BufTy).Contents (Elt F) → (⟨S32768x1024, .f32⟩ : BufTy).Contents (Elt F)),
    StableHlo.TRef.nullary main_call1.cst (constant S_ .f32 0x00000000#32),
    StableHlo.TRef.unary main_call1.cst main_call1.v0 (broadcastInDim S32768x1024 ![] bcast_S_S32768x1024),
    StableHlo.TRef.binary (.of main_v25 : StableHlo.TRef sig ⟨S32768x1024, .f32⟩) main_call1.v0 main_call1.v1 maximumf,
    StableHlo.unary main_arg5 main_v27 ((transpose S1024x512 [1, 0] · transposes_S512x1024_S1024x512_1_0) : (⟨S512x1024, .f32⟩ : BufTy).Contents (Elt F) → (⟨S1024x512, .f32⟩ : BufTy).Contents (Elt F)),
    StableHlo.binary main_v26 main_v27 main_v28 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_arg6 main_v29 (broadcastInDim S1x512 ![1] bcast_S512_S1x512_1 : (⟨S512, .f32⟩ : BufTy).Contents (Elt F) → (⟨S1x512, .f32⟩ : BufTy).Contents (Elt F)),
    StableHlo.unary main_v29 main_v30 (broadcastInDim S32768x512 ![0, 1] bcast_S1x512_S32768x512_0_1 : (⟨S1x512, .f32⟩ : BufTy).Contents (Elt F) → (⟨S32768x512, .f32⟩ : BufTy).Contents (Elt F)),
    StableHlo.binary main_v28 main_v30 main_v31 (addf : (⟨S32768x512, .f32⟩ : BufTy).Contents (Elt F) → (⟨S32768x512, .f32⟩ : BufTy).Contents (Elt F) → (⟨S32768x512, .f32⟩ : BufTy).Contents (Elt F)),
    StableHlo.TRef.nullary main_call2.cst (constant S_ .f32 0x00000000#32),
    StableHlo.TRef.unary main_call2.cst main_call2.v0 (broadcastInDim S32768x512 ![] bcast_S_S32768x512),
    StableHlo.TRef.binary (.of main_v31 : StableHlo.TRef sig ⟨S32768x512, .f32⟩) main_call2.v0 main_call2.v1 maximumf,
    StableHlo.unary main_arg7 main_v33 ((transpose S512x256 [1, 0] · transposes_S256x512_S512x256_1_0) : (⟨S256x512, .f32⟩ : BufTy).Contents (Elt F) → (⟨S512x256, .f32⟩ : BufTy).Contents (Elt F)),
    StableHlo.binary main_v32 main_v33 main_v34 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    StableHlo.unary main_arg8 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S32768x256 ![0, 1] bcast_S1x256_S32768x256_0_1 : (⟨S1x256, .f32⟩ : BufTy).Contents (Elt F) → (⟨S32768x256, .f32⟩ : BufTy).Contents (Elt F)),
    StableHlo.binary main_v34 main_v36 main_v37 (addf : (⟨S32768x256, .f32⟩ : BufTy).Contents (Elt F) → (⟨S32768x256, .f32⟩ : BufTy).Contents (Elt F) → (⟨S32768x256, .f32⟩ : BufTy).Contents (Elt F)),
    StableHlo.TRef.nullary main_call3.cst (constant S_ .f32 0x00000000#32),
    StableHlo.TRef.unary main_call3.cst main_call3.v0 (broadcastInDim S32768x256 ![] bcast_S_S32768x256),
    StableHlo.TRef.binary (.of main_v37 : StableHlo.TRef sig ⟨S32768x256, .f32⟩) main_call3.v0 main_call3.v1 maximumf,
    StableHlo.unary main_arg9 main_v39 ((transpose S256x1 [1, 0] · transposes_S1x256_S256x1_1_0) : (⟨S1x256, .f32⟩ : BufTy).Contents (Elt F) → (⟨S256x1, .f32⟩ : BufTy).Contents (Elt F)),
    StableHlo.binary main_v38 main_v39 main_v40 ((fun l r => Host.dotGeneral dot_S32768x256_S256x1_S32768x1_1_0_0_1_n_n none l r) : (⟨S32768x256, .f32⟩ : BufTy).Contents (Elt F) → (⟨S256x1, .f32⟩ : BufTy).Contents (Elt F) → (⟨S32768x1, .f32⟩ : BufTy).Contents (Elt F)),
    StableHlo.unary main_arg10 main_v41 (broadcastInDim S1x1 ![1] bcast_S1_S1x1_1 : (⟨S1, .f32⟩ : BufTy).Contents (Elt F) → (⟨S1x1, .f32⟩ : BufTy).Contents (Elt F)),
    StableHlo.unary main_v41 main_v42 (broadcastInDim S32768x1 ![0, 1] bcast_S1x1_S32768x1_0_1 : (⟨S1x1, .f32⟩ : BufTy).Contents (Elt F) → (⟨S32768x1, .f32⟩ : BufTy).Contents (Elt F)),
    StableHlo.binary main_v40 main_v42 main_v43 (addf : (⟨S32768x1, .f32⟩ : BufTy).Contents (Elt F) → (⟨S32768x1, .f32⟩ : BufTy).Contents (Elt F) → (⟨S32768x1, .f32⟩ : BufTy).Contents (Elt F)) ]

set_option maxRecDepth 2048 in
/-- @main is that straight line: the three functions' definitions unfolded at their calls, both sides are one
    chain of steps once sequencing is re-associated. -/
theorem main_eq (c : Dev nD) : main (F := F) c = seq ops := by
  simp only [main, fn_relu.body, fn_relu_0.body, fn_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., unary_bufs_sub .., reshape_bufs_sub ..,
    binary_bufs_sub .., nullary_bufs_sub .., unary_bufs_sub .., binary_bufs_sub .., ternary_bufs_sub .., nullary_bufs_sub ..,
    unary_bufs_sub .., binary_bufs_sub .., ternary_bufs_sub .., unary_bufs_sub .., unary_bufs_sub .., binary_bufs_sub ..,
    binary_bufs_sub .., nullary_bufs_sub .., unary_bufs_sub .., nary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub ..⟩

set_option maxRecDepth 8192 in
set_option maxHeartbeats 4000000 in
/-- The fold at the result buffer is the composed term: each operation's result read at its own buffer is its
    function of its operands' contents, at any other buffer what was there; the three operands of the
    features' concatenation, and the moves of the maximum's operands to and from their buffers' own types
    (identities), agree with the term by computation. -/
theorem out_eq (V : Valuation τ sig (Elt F)) :
    after ops V (main_v43 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results
  rfl

/-! No operation writes an argument's buffer: after the fold each holds what it held. -/

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem arg3_eq (V : Valuation τ sig (Elt F)) :
    after ops V (main_arg3 : DevRef τ sig) = V (main_arg3 : DevRef τ sig) := by
  after_results

theorem arg4_eq (V : Valuation τ sig (Elt F)) :
    after ops V (main_arg4 : DevRef τ sig) = V (main_arg4 : DevRef τ sig) := by
  after_results

theorem arg5_eq (V : Valuation τ sig (Elt F)) :
    after ops V (main_arg5 : DevRef τ sig) = V (main_arg5 : DevRef τ sig) := by
  after_results

theorem arg6_eq (V : Valuation τ sig (Elt F)) :
    after ops V (main_arg6 : DevRef τ sig) = V (main_arg6 : DevRef τ sig) := by
  after_results

theorem arg7_eq (V : Valuation τ sig (Elt F)) :
    after ops V (main_arg7 : DevRef τ sig) = V (main_arg7 : DevRef τ sig) := by
  after_results

theorem arg8_eq (V : Valuation τ sig (Elt F)) :
    after ops V (main_arg8 : DevRef τ sig) = V (main_arg8 : DevRef τ sig) := by
  after_results

theorem arg9_eq (V : Valuation τ sig (Elt F)) :
    after ops V (main_arg9 : DevRef τ sig) = V (main_arg9 : DevRef τ sig) := by
  after_results

theorem arg10_eq (V : Valuation τ sig (Elt F)) :
    after ops V (main_arg10 : DevRef τ sig) = V (main_arg10 : DevRef τ sig) := by
  after_results

/-- On every device, for any float values, from any memory with zero counters: every weakly fair execution of
    @main terminates with the result buffer at the composed term of the arguments' launch contents and every
    argument buffer unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v43).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ)

end Cert.ReferenceIdeal.Hand

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«140031_j6116033429805_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.RefRead.lean ====
/-
  The reference's composed term is the kernel's: over the extended reals, layer by layer and index by index.
  * A host matrix product plus a bias vector made a row and spread over the rows is one affine layer, the bias row
    being the vector read through its cast to a one-row matrix: at (p, q) both are the sum over k of X (p, k) · W (k, q)
    plus the vector's entry q.
  * The maximum with the zero scalar spread over the matrix is the entrywise maximum with zero.
  * The host's batched product of the examples with themselves, contracted on the last axis, is every example's matrix
    of pairwise inner products.
  * The two programs build the features by the same operations from the same literal tables, so the features agree
    once the product is read as that matrix.
-/
import proofs.«140031_j6116033429805_1_alg».proof.Proof.RefTerm
import proofs.«140031_j6116033429805_1_alg».proof.Proof.KTerm
import proofs.«140031_j6116033429805_1_alg».proof.Proof.Spec
import proofs.«140031_j6116033429805_1_alg».proof.Proof.LibHostRows
import proofs.«140031_j6116033429805_1_alg».proof.Proof.LibBatchDot

noncomputable section

namespace Cert.ReferenceIdeal.Hand

open Cert.ReferenceIdeal
open Idealize.ShloMosaic Idealize.SL.Sem Idealize.ShloMosaic.ValueIdx
open Cert.ReferenceIdeal.Facts₀ Cert.ReferenceIdeal.Facts

/-! ## One layer, program-free -/

section Layer
variable {B K N : ℕ}

/-- A vector cast to a one-row matrix reads, at (u, q), the vector at q: the two row-major positions agree. -/
theorem shapeCast_vec_row_apply {α : Type} (x : (⟨1, ![N]⟩ : Shape).Idx → α)
    (h : (⟨1, ![N]⟩ : Shape).ShapeCasts ⟨2, ![1, N]⟩) (u : Fin 1) (q : Fin N) :
    shapeCast ⟨2, ![1, N]⟩ x h (ix2 u q) = x (ix1 q) :=
  shapeCast_apply x h _ _ (by
    have hu : u.val = 0 := by omega
    rw [Shape.rowMajor_val_one, Shape.rowMajor_val_two]
    show q.val = u.val * N + q.val
    rw [hu, Nat.zero_mul, Nat.zero_add])

/-- The host's plain product plus the bias vector, made a row and spread over the rows, is the affine layer whose bias
    row is the vector cast to a one-row matrix. -/
theorem dense_read (D : DotDims ⟨2, ![B, K]⟩ ⟨2, ![K, N]⟩ ⟨2, ![B, N]⟩) (hD : D = DotDims.plain B K N)
    (X : Spec.A2 B K) (W : Spec.A2 K N) (β : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![B, N]⟩ ![0, 1])
    (hc : (⟨1, ![N]⟩ : Shape).ShapeCasts ⟨2, ![1, N]⟩) :
    addf (F := Ideal) (φ := .f32) (Host.dotGeneral (F := Ideal) (φ₁ := .f32) (φ₂ := .f32) D none X W)
        (broadcastInDim ⟨2, ![B, N]⟩ ![0, 1] h2 (broadcastInDim ⟨2, ![1, N]⟩ ![1] h1 β))
      = Spec.dense X W (shapeCast ⟨2, ![1, N]⟩ β hc) := by
  subst hD
  funext j
  obtain ⟨p, q, rfl⟩ : ∃ p q, j = ix2 p q := ⟨j 0, j 1, eq_ix2 j⟩
  rw [Spec.dense_apply, addf_apply]
  unfold Spec.denseAt
  rw [show Host.dotGeneral (F := Ideal) (φ₁ := .f32) (φ₂ := .f32) (DotDims.plain B K N) none X W
        = FloatOps.dotGeneral (DotDims.plain B K N) none .single X W from rfl,
    Cert.LibHostRows.dotGeneral_plain_apply, Cert.LibHostRows.bcast_row_apply, Cert.LibHostRows.bcast_vec_row_apply,
    shapeCast_vec_row_apply]

/-- The maximum with the zero scalar spread over the matrix is the entrywise maximum with zero. -/
theorem relu_read (Y : Spec.A2 B N) (h : (⟨0, ![]⟩ : Shape).BroadcastsInDim ⟨2, ![B, N]⟩ ![]) :
    maximumf (F := Ideal) (φ := .f32) Y (broadcastInDim ⟨2, ![B, N]⟩ ![] h (constant (F := Ideal) ⟨0, ![]⟩ .f32 0x00000000#32))
      = Spec.relu Y := by
  funext j
  rw [Spec.relu_apply, maximumf_apply, Cert.LibHostRows.bcast_scalar_apply, constant_apply]

end Layer

/-! ## The printed layers -/

section Layers
variable [hF : Cert.ReferenceIdeal.Facts]

theorem refL0_eq (X : (⟨S32768x480, .f32⟩ : BufTy).Contents (Elt Ideal)) (a1 : (⟨S1024x480, .f32⟩ : BufTy).Contents (Elt Ideal))
    (a2 : (⟨S1024, .f32⟩ : BufTy).Contents (Elt Ideal)) (ht : S1024x480.Transposes [1, 0] S480x1024) (hc : S1024.ShapeCasts S1x1024) :
    refL0 (F := Ideal) X a1 a2 = Spec.relu (Spec.dense X (transpose S480x1024 [1, 0] a1 ht) (shapeCast S1x1024 a2 hc)) := by
  unfold refL0
  rw [dense_read dot_S32768x480_S480x1024_S32768x1024_1_0_0_1_n_n rfl X _ a2 _ _ hc, relu_read]

theorem refL1_eq (X : (⟨S32768x1024, .f32⟩ : BufTy).Contents (Elt Ideal)) (a3 : (⟨S1024x1024, .f32⟩ : BufTy).Contents (Elt Ideal))
    (a4 : (⟨S1024, .f32⟩ : BufTy).Contents (Elt Ideal)) (ht : S1024x1024.Transposes [1, 0] S1024x1024) (hc : S1024.ShapeCasts S1x1024) :
    refL1 (F := Ideal) X a3 a4 = Spec.relu (Spec.dense X (transpose S1024x1024 [1, 0] a3 ht) (shapeCast S1x1024 a4 hc)) := by
  unfold refL1
  rw [dense_read dot_S32768x1024_S1024x1024_S32768x1024_1_0_0_1_n_n rfl X _ a4 _ _ hc, relu_read]

theorem refL2_eq (X : (⟨S32768x1024, .f32⟩ : BufTy).Contents (Elt Ideal)) (a5 : (⟨S512x1024, .f32⟩ : BufTy).Contents (Elt Ideal))
    (a6 : (⟨S512, .f32⟩ : BufTy).Contents (Elt Ideal)) (ht : S512x1024.Transposes [1, 0] S1024x512) (hc : S512.ShapeCasts S1x512) :
    refL2 (F := Ideal) X a5 a6 = Spec.relu (Spec.dense X (transpose S1024x512 [1, 0] a5 ht) (shapeCast S1x512 a6 hc)) := by
  unfold refL2
  rw [dense_read dot_S32768x1024_S1024x512_S32768x512_1_0_0_1_n_n rfl X _ a6 _ _ hc, relu_read]

theorem refL3_eq (X : (⟨S32768x512, .f32⟩ : BufTy).Contents (Elt Ideal)) (a7 : (⟨S256x512, .f32⟩ : BufTy).Contents (Elt Ideal))
    (a8 : (⟨S256, .f32⟩ : BufTy).Contents (Elt Ideal)) (ht : S256x512.Transposes [1, 0] S512x256) (hc : S256.ShapeCasts S1x256) :
    refL3 (F := Ideal) X a7 a8 = Spec.relu (Spec.dense X (transpose S512x256 [1, 0] a7 ht) (shapeCast S1x256 a8 hc)) := by
  unfold refL3
  rw [dense_read dot_S32768x512_S512x256_S32768x256_1_0_0_1_n_n rfl X _ a8 _ _ hc, relu_read]

theorem refL4_eq (X : (⟨S32768x256, .f32⟩ : BufTy).Contents (Elt Ideal)) (a9 : (⟨S1x256, .f32⟩ : BufTy).Contents (Elt Ideal))
    (a10 : (⟨S1, .f32⟩ : BufTy).Contents (Elt Ideal)) (ht : S1x256.Transposes [1, 0] S256x1) (hc : S1.ShapeCasts S1x1) :
    refL4 (F := Ideal) X a9 a10 = Spec.dense X (transpose S256x1 [1, 0] a9 ht) (shapeCast S1x1 a10 hc) := by
  unfold refL4
  rw [dense_read dot_S32768x256_S256x1_S32768x1_1_0_0_1_n_n rfl X _ a10 _ _ hc]

end Layers

/-! ## The features -/

/-- The two programs print the same table of row coordinates. -/
theorem lit0_eq : Cert.ReferenceIdeal.lit0 = Cert.KernelIdeal.lit0 := by
  funext i
  fin_cases i <;> rfl

/-- The two programs print the same table of column coordinates. -/
theorem lit1_eq : Cert.ReferenceIdeal.lit1 = Cert.KernelIdeal.lit1 := by
  funext i
  fin_cases i <;> rfl

section Feat
variable [hK : Cert.KernelIdeal.Facts] [hF : Cert.ReferenceIdeal.Facts]

/-- The two programs' index records of the gather have the same fields. -/
theorem gather_eq : gather_S32768x27x27_S351x2_S32768x351_0_12_n_n_12_1_3276811
    = Cert.KernelIdeal.gather_S32768x27x27_S351x2_S32768x351_0_12_n_n_12_1_3276811 := rfl

theorem trilRow_eq {F : FTy → Type} [FloatOps F] : trilRow (F := F) = Cert.KernelIdeal.Hand.trilRow (F := F) := by
  unfold trilRow Cert.KernelIdeal.Hand.trilRow
  rw [lit0_eq]

theorem trilCol_eq {F : FTy → Type} [FloatOps F] : trilCol (F := F) = Cert.KernelIdeal.Hand.trilCol (F := F) := by
  unfold trilCol Cert.KernelIdeal.Hand.trilCol
  rw [lit1_eq]

theorem trilIdx_eq {F : FTy → Type} [FloatOps F] : trilIdx (F := F) = Cert.KernelIdeal.Hand.trilIdx (F := F) := by
  unfold trilIdx Cert.KernelIdeal.Hand.trilIdx
  rw [trilRow_eq, trilCol_eq]

/-- The host's batched product of the examples with themselves is every example's matrix of pairwise inner products. -/
theorem gram_read (a0 : (⟨S32768x27x128, .f32⟩ : BufTy).Contents (Elt Ideal)) :
    Host.dotGeneral (F := Ideal) (φ₁ := .f32) (φ₂ := .f32) dot_S32768x27x128_S32768x27x128_S32768x27x27_2_2_1_1_0_0 none a0 a0 = Spec.gram a0 := by
  funext j
  obtain ⟨b, n, m, rfl⟩ : ∃ b n m, j = ix3 b n m := ⟨j 0, j 1, j 2, eq_ix3 j⟩
  rw [Spec.gram_apply]
  unfold Spec.gramAt
  rw [show Host.dotGeneral (F := Ideal) (φ₁ := .f32) (φ₂ := .f32) dot_S32768x27x128_S32768x27x128_S32768x27x27_2_2_1_1_0_0 none a0 a0
        = FloatOps.dotGeneral dot_S32768x27x128_S32768x27x128_S32768x27x27_2_2_1_1_0_0 none .single a0 a0 from rfl,
    Ideal.dotGeneral_apply]
  exact Cert.LibBatchDot.batchDot_sum dot_S32768x27x128_S32768x27x128_S32768x27x27_2_2_1_1_0_0 rfl rfl rfl rfl rfl rfl a0 a0 b n m

/-- The reference's features are the kernel's features of the matrices of pairwise inner products. -/
theorem refFeat_eq (a0 : (⟨S32768x27x128, .f32⟩ : BufTy).Contents (Elt Ideal)) :
    refFeat (F := Ideal) a0 = Cert.KernelIdeal.Hand.feat (F := Ideal) a0 (Spec.gram a0) := by
  unfold refFeat Cert.KernelIdeal.Hand.feat
  rw [gram_read, trilIdx_eq, gather_eq]

end Feat

/-! ## The whole term -/

/-- The reference's result is the network on the features of the first argument and of its examples' matrices of
    pairwise inner products, with each weight matrix transposed and each bias vector as a one-row matrix. -/
theorem refOut_eq [hK : Cert.KernelIdeal.Facts] [hF : Cert.ReferenceIdeal.Facts]
    (a0 : (⟨S32768x27x128, .f32⟩ : BufTy).Contents (Elt Ideal)) (a1 : (⟨S1024x480, .f32⟩ : BufTy).Contents (Elt Ideal))
    (a2 : (⟨S1024, .f32⟩ : BufTy).Contents (Elt Ideal)) (a3 : (⟨S1024x1024, .f32⟩ : BufTy).Contents (Elt Ideal))
    (a4 : (⟨S1024, .f32⟩ : BufTy).Contents (Elt Ideal)) (a5 : (⟨S512x1024, .f32⟩ : BufTy).Contents (Elt Ideal))
    (a6 : (⟨S512, .f32⟩ : BufTy).Contents (Elt Ideal)) (a7 : (⟨S256x512, .f32⟩ : BufTy).Contents (Elt Ideal))
    (a8 : (⟨S256, .f32⟩ : BufTy).Contents (Elt Ideal)) (a9 : (⟨S1x256, .f32⟩ : BufTy).Contents (Elt Ideal))
    (a10 : (⟨S1, .f32⟩ : BufTy).Contents (Elt Ideal)) :
    (refOut (F := Ideal) a0 a1 a2 a3 a4 a5 a6 a7 a8 a9 a10 : Cert.Spec.A2 32768 1)
      = Cert.KernelIdeal.Hand.kernelOut a0 a1 a2 a3 a4 a5 a6 a7 a8 a9 a10 := by
  unfold refOut Cert.KernelIdeal.Hand.kernelOut Spec.mlp
  rw [refL4_eq _ a9 a10 Cert.KernelIdeal.Facts₀.transposes_S1x256_S256x1_1_0 Cert.KernelIdeal.Facts₀.shapeCasts_S1_S1x1,
    refL3_eq _ a7 a8 Cert.KernelIdeal.Facts₀.transposes_S256x512_S512x256_1_0 Cert.KernelIdeal.Facts₀.shapeCasts_S256_S1x256,
    refL2_eq _ a5 a6 Cert.KernelIdeal.Facts₀.transposes_S512x1024_S1024x512_1_0 Cert.KernelIdeal.Facts₀.shapeCasts_S512_S1x512,
    refL1_eq _ a3 a4 Cert.KernelIdeal.Facts₀.transposes_S1024x1024_S1024x1024_1_0 Cert.KernelIdeal.Facts₀.shapeCasts_S1024_S1x1024,
    refL0_eq _ a1 a2 Cert.KernelIdeal.Facts₀.transposes_S1024x480_S480x1024_1_0 Cert.KernelIdeal.Facts₀.shapeCasts_S1024_S1x1024,
    refFeat_eq]

end Cert.ReferenceIdeal.Hand

end
-- ==== Proof.lean ====
/-
  The certificate: the kernel's program and the reference compute the same function over the extended reals.

  The kernel's program runs two pipelined regions around host glue. Region 0 forms, for every example, the matrix of
  pairwise inner products of its 27 embedding rows; the host picks the 351 strictly-lower entries, puts the example's
  first row before them and a zero after them; region 1 runs the five-layer network 480 → 1024 → 1024 → 512 → 256 → 1,
  a block of 1024 rows per grid point, the weights transposed by the host. The reference does the same on the host:
  one batched contraction, the same gather and concatenate, and each layer as a product with the transposed weight,
  a bias spread over the rows and a maximum with zero.

  Frames: each program terminates, faults nowhere and leaves its eleven argument arrays as launched — the two kernel
  programs by the run of their segments (host stretch, region, host stretch, region) with every unscoped buffer named
  at the end, the reference by its run of host operations.
  Values: the kernel's result array is, block by block, the network on the features (a block of rows of a layer is the
  layer on that block of rows), hence `kernelOut` of the arguments; the reference's composed term is `kernelOut` of its
  arguments, a matrix product and a contraction being the same finite sums on both sides and a change of float format
  the identity; the arguments agree. No law that needs finiteness is used: only that sums and products are read in the
  same order.
-/
import proofs.«140031_j6116033429805_1_alg».proof.Defs
import proofs.«140031_j6116033429805_1_alg».proof.Proof.Gen.Kernel
import proofs.«140031_j6116033429805_1_alg».proof.Proof.Gen.KernelIdeal
import proofs.«140031_j6116033429805_1_alg».proof.Proof.Gen.ReferenceIdeal
import proofs.«140031_j6116033429805_1_alg».proof.Proof.Gen.Pre_finite_inputs
import proofs.«140031_j6116033429805_1_alg».proof.Proof.KFrameRun
import proofs.«140031_j6116033429805_1_alg».proof.Proof.KernelValue
import proofs.«140031_j6116033429805_1_alg».proof.Proof.RefRun
import proofs.«140031_j6116033429805_1_alg».proof.Proof.RefRead

noncomputable section

namespace Cert.Proof

open Idealize.ShloMosaic Idealize.SL.Sem

/-- The word-level kernel program terminates, faults nowhere and keeps its arguments. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments both programs end with their result arrays at `kernelOut` of the
    kernel's arguments. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10⟩ := hagree c
  rw [h0, h1, h2, h3, h4, h5, h6, h7, h8, h9, h10]
  exact Cert.ReferenceIdeal.Hand.refOut_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
